-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S1x4x16 : Shape := ⟨3, ![1, 4, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1x4x16 : S_.BroadcastsInDim S1x4x16 (![] : Fin 0 → Fin S1x4x16.rank)
  reducesTo_S1x4x16_S_d0_1_2 : S1x4x16.ReducesTo [0, 1, 2] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg1 : IVec S2x1000000 32) (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  let main_c_6 : IVec S_ 32 := constantI S_ 32 0#32
  let main_v19 : IVec S2x1000000 32 := broadcastInDim S2x1000000 ![] bcast_S_S2x1000000 main_c_6
  let main_v20 : IVec S2x1000000 1 := cmpi .sge main_arg1 main_v19
  let main_c_7 : IVec S_ 32 := constantI S_ 32 100000#32
  let main_v21 : IVec S2x1000000 32 := broadcastInDim S2x1000000 ![] bcast_S_S2x1000000 main_c_7
  let main_v22 : IVec S2x1000000 1 := cmpi .slt main_arg1 main_v21
  let main_v23 : IVec S2x1000000 1 := andi main_v20 main_v22
  let main_c_8 : IVec S_ 1 := constantI S_ 1 1#1
  let main_v24 : IVec S_ 1 := (fun x v => Host.reduce IntOp.andi x v reducesTo_S2x1000000_S_d0_1 h_S_) main_v23 main_c_8
  let main_v25 : IVec S_ 1 := andi main_v18 main_v24
  main_v25

def fn {F : FTy → Type} [FloatOps F] (main_arg0 : FVec F S100000x128 .f32) (main_arg1 : IVec S2x1000000 32) (main_arg2 : FVec F S128x64 .f32) (main_arg3 : FVec F S1x4x16 .f32) (main_arg4 : FVec F S1x4x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x4x16 .f32 := Host.absf main_arg3
  let main_cst_2 : FVec F S_ .f32 := constant S_ .f32 0x7F800000#32
  let main_v10 : FVec F S1x4x16 .f32 := broadcastInDim S1x4x16 ![] bcast_S_S1x4x16 main_cst_2
  let main_v11 : IVec S1x4x16 1 := cmpf .olt main_v9 main_v10
  let main_c_3 : IVec S_ 1 := constantI S_ 1 1#1
  let main_v12 : IVec S_ 1 := (fun x v => Host.reduce IntOp.andi x v reducesTo_S1x4x16_S_d0_1_2 h_S_) main_v11 main_c_3
  let main_v13 : IVec S_ 1 := andi main_v8 main_v12
  let main_v14 : FVec F S1x4x16 .f32 := Host.absf main_arg4
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_arg1 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S1x4x16 : Shape := ⟨3, ![1, 4, 16]⟩
abbrev S100000x64 : Shape := ⟨2, ![100000, 64]⟩
abbrev S2000x128 : Shape := ⟨2, ![2000, 128]⟩
abbrev S2000x64 : Shape := ⟨2, ![2000, 64]⟩
abbrev S100000x4x16 : Shape := ⟨3, ![100000, 4, 16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x4x16 : Shape := ⟨3, ![1000000, 4, 16]⟩
abbrev S1000x4x16 : Shape := ⟨3, ![1000, 4, 16]⟩
abbrev S1000x4 : Shape := ⟨2, ![1000, 4]⟩
abbrev S1000 : Shape := ⟨1, ![1000]⟩
abbrev S1000x1 : Shape := ⟨2, ![1000, 1]⟩
abbrev S1000x4x1 : Shape := ⟨3, ![1000, 4, 1]⟩

abbrev nBuf : Space → Nat
  | .hbm => 66
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S100000x64, .f32⟩
  | .hbm, ⟨6, _⟩ => ⟨S100000x4x16, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x4x16, .f32⟩
  | .hbm, ⟨30, _⟩ => ⟨S1000000x4x16, .i1⟩
  | .hbm, ⟨31, _⟩ => ⟨S_, .f32⟩
  | .hbm, ⟨32, _⟩ => ⟨S1000000x4x16, .f32⟩
  | .hbm, ⟨33, _⟩ => ⟨S1000000x4x16, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1, .i32⟩
  | .hbm, ⟨43, _⟩ => ⟨S_, .i32⟩
  | .hbm, ⟨44, _⟩ => ⟨S1000000x1, .i32⟩
  | .hbm, ⟨45, _⟩ => ⟨S1000000x1, .i1⟩
  | .hbm, ⟨46, _⟩ => ⟨S1x1, .i32⟩
  | .hbm, ⟨47, _⟩ => ⟨S1000000x1, .i32⟩
  | .hbm, ⟨48, _⟩ => ⟨S1000000x1, .i1⟩
  | .hbm, ⟨49, _⟩ => ⟨S1000000x1, .i1⟩
  | .hbm, ⟨50, _⟩ => ⟨S_, .i1⟩
  | .hbm, ⟨51, _⟩ => ⟨S1000000, .i1⟩
  | .hbm, ⟨52, _⟩ => ⟨S1000000x4x16, .f32⟩
  | .hbm, ⟨53, _⟩ => ⟨S1000000x4x16, .i1⟩
  | .hbm, ⟨54, _⟩ => ⟨S_, .f32⟩
  | .hbm, ⟨55, _⟩ => ⟨S1000000x4x16, .f32⟩
  | .hbm, ⟨56, _⟩ => ⟨S1000000x4x16, .f32⟩
  | .hbm, ⟨57, _⟩ => ⟨S1000000x4x16, .f32⟩
  | .hbm, ⟨58, _⟩ => ⟨S_, .f32⟩
  | .hbm, ⟨59, _⟩ => ⟨S100000x4x16, .f32⟩
  | .hbm, ⟨60, _⟩ => ⟨S1000000x1, .i32⟩
  | .hbm, ⟨61, _⟩ => ⟨S100000x4x16, .f32⟩
  | .hbm, ⟨62, _⟩ => ⟨S_, .f32⟩
  | .hbm, ⟨63, _⟩ => ⟨S100000x4x16, .f32⟩
  | .hbm, ⟨64, _⟩ => ⟨S100000x4x16, .f32⟩
  | .hbm, ⟨65, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S1000x4x16, .f32⟩
  | .local _ .vmem, ⟨6, _⟩ => ⟨S1000x4x16, .f32⟩
  | .local _ .vmem, ⟨7, _⟩ => ⟨S1000x4x16, .f32⟩
  | .local _ .vmem, ⟨8, _⟩ => ⟨S1000x4x16, .f32⟩
  | .local _ .vmem, ⟨9, _⟩ => ⟨S1x4x16, .f32⟩
  | .local _ .vmem, ⟨10, _⟩ => ⟨S1x4x16, .f32⟩
  | .local _ .vmem, ⟨11, _⟩ => ⟨S1000x4x16, .f32⟩
  | .local _ .vmem, ⟨12, _⟩ => ⟨S1000x4x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_cst : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_call2_cst : Ref sig .tc := ⟨.hbm, 62, rfl⟩
abbrev main_call2_v0 : Ref sig .tc := ⟨.hbm, 63, rfl⟩
abbrev main_v12 : Ref sig .tc := ⟨.hbm, 64, rfl⟩
abbrev main_v13 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1000], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x4x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x4x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x4x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  shapeCasts_S100000x64_S100000x4x16 : S100000x64.ShapeCasts S100000x4x16
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x4x16_0 : S1000000.BroadcastsInDim S1000000x4x16 (![0] : Fin 1 → Fin S1000000x4x16.rank)
  bcast_S_S1000000x4x16 : S_.BroadcastsInDim S1000000x4x16 (![] : Fin 0 → Fin S1000000x4x16.rank)
  inb_S1000x4x16_S1000x4x16_0_0_0 : ∀ a, (![0, 0, 0] : Fin 3 → Nat) a + S1000x4x16.size a ≤ S1000x4x16.size a
  h_S1000x4x16 : 0 < S1000x4x16.numel
  shapeCasts_S1000x4x16_S1000x4x16 : S1000x4x16.ShapeCasts S1000x4x16
  inb_S1x4x16_S1x4x16_0_0_0 : ∀ a, (![0, 0, 0] : Fin 3 → Nat) a + S1x4x16.size a ≤ S1x4x16.size a
  h_S1x4x16 : 0 < S1x4x16.numel
  broadcasts_S1x4x16_S1000x4x16 : S1x4x16.Broadcasts S1000x4x16
  reduces_S1000x4x16_S1000x4 : S1000x4x16.Reduces [2] S1000x4
  reduces_S1000x4_S1000 : S1000x4.Reduces [1] S1000
  shapeCasts_S1000_S1000x1 : S1000.ShapeCasts S1000x1
  broadcasts_S1000x1_S1000x4 : S1000x1.Broadcasts S1000x4
  shapeCasts_S1000x4_S1000x4x1 : S1000x4.ShapeCasts S1000x4x1
  broadcasts_S1000x4x1_S1000x4x16 : S1000x4x1.Broadcasts S1000x4x16
  bcast_S_S100000x4x16 : S_.BroadcastsInDim S100000x4x16 (![] : Fin 0 → Fin S100000x4x16.rank)
  shapeCasts_S100000x4x16_S100000x64 : S100000x4x16.ShapeCasts S100000x64
  dot_S2000x128_S128x64_S2000x64_1_0_0_1_n_n_wf : DotDims.WF S2000x128 S128x64 S2000x64 [1] [0] [0] [1] [] []
  gather_S100000x4x16_S1000000x1_S1000000x4x16_12_0_n_n_0_1_1416_wf : GatherDims.WF S100000x4x16 S1000000x1 S1000000x4x16 [1, 2] [0] [] [0] [] 1 ![1, 4, 16]
  scatter_S100000x4x16_S1000000x1_S1000000x4x16_12_0_0_1_wf : ScatterDims.WF S100000x4x16 S1000000x1 S1000000x4x16 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x4x16.size a ≤ S1000000x4x16.size a
  hwx1_0 : ∀ i : grid1.Coords, EltTy.bits .f32 = 32 ∨ (Rect.block (s := S1000000x4x16) S1000x4x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x4x16.size a ≤ S1000000x4x16.size a
  hwx1_1 : ∀ i : grid1.Coords, EltTy.bits .f32 = 32 ∨ (Rect.block (s := S1000000x4x16) S1000x4x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4x16.size a ≤ S1x4x16.size a
  hwx1_2 : ∀ i : grid1.Coords, EltTy.bits .f32 = 32 ∨ (Rect.block (s := S1x4x16) S1x4x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4x16.size a ≤ S1x4x16.size a
  hwx1_3 : ∀ i : grid1.Coords, EltTy.bits .f32 = 32 ∨ (Rect.block (s := S1x4x16) S1x4x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x4x16.size a ≤ S1000000x4x16.size a
  hwx1_4 : ∀ i : grid1.Coords, EltTy.bits .f32 = 32 ∨ (Rect.block (s := S1000000x4x16) S1000x4x16.size (cc1_transform_4 i) (hinb1_4 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x4x16_S1000000x1_S1000000x4x16_12_0_n_n_0_1_1416 : GatherDims S100000x4x16 S1000000x1 S1000000x4x16 where
  offsetDims := [1, 2]
  collapsedSliceDims := [0]
  operandBatchingDims := []
  startIndicesBatchingDims := []
  startIndexMap := [0]
  indexVectorDim := 1
  sliceSizes := ![1, 4, 16]
  wf := gather_S100000x4x16_S1000000x1_S1000000x4x16_12_0_n_n_0_1_1416_wf
def scatter_S100000x4x16_S1000000x1_S1000000x4x16_12_0_0_1 : ScatterDims S100000x4x16 S1000000x1 S1000000x4x16 where
  updateWindowDims := [1, 2]
  insertedWindowDims := [0]
  scatterDimsToOperandDims := [0]
  indexVectorDim := 1
  wf := scatter_S100000x4x16_S1000000x1_S1000000x4x16_12_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1000x4x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1000x4x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x4x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x4x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1000x4x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S1x4x16 : Shape := ⟨3, ![1, 4, 16]⟩
abbrev S100000x64 : Shape := ⟨2, ![100000, 64]⟩
abbrev S100000x4x16 : Shape := ⟨3, ![100000, 4, 16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x4x16 : Shape := ⟨3, ![1000000, 4, 16]⟩
abbrev S1000000x4 : Shape := ⟨2, ![1000000, 4]⟩
abbrev S1000000x4x1 : Shape := ⟨3, ![1000000, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S100000x64, .f32⟩
  | .hbm, ⟨6, _⟩ => ⟨S100000x4x16, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x4x16, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x4x16, .f32⟩
  | .hbm, ⟨29, _⟩ => ⟨S1000000x4x16, .f32⟩
  | .hbm, ⟨30, _⟩ => ⟨S1000000x4x16, .f32⟩
  | .hbm, ⟨31, _⟩ => ⟨S_, .f32⟩
  | .hbm, ⟨32, _⟩ => ⟨S1000000x4, .f32⟩
  | .hbm, ⟨33, _⟩ => ⟨S1000000x4x16, .f32⟩
  | .hbm, ⟨34, _⟩ => ⟨S1000000x4x16, .f32⟩
  | .hbm, ⟨35, _⟩ => ⟨S_, .f32⟩
  | .hbm, ⟨36, _⟩ => ⟨S1000000x4, .f32⟩
  | .hbm, ⟨37, _⟩ => ⟨S1000000x4, .f32⟩
  | .hbm, ⟨38, _⟩ => ⟨S_, .f32⟩
  | .hbm, ⟨39, _⟩ => ⟨S1000000x4, .f32⟩
  | .hbm, ⟨40, _⟩ => ⟨S1000000x4, .i1⟩
  | .hbm, ⟨41, _⟩ => ⟨S_, .f32⟩
  | .hbm, ⟨42, _⟩ => ⟨S1000000x4, .f32⟩
  | .hbm, ⟨43, _⟩ => ⟨S1000000x4, .f32⟩
  | .hbm, ⟨44, _⟩ => ⟨S1000000x4, .f32⟩
  | .hbm, ⟨45, _⟩ => ⟨S_, .f32⟩
  | .hbm, ⟨46, _⟩ => ⟨S1000000, .f32⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S1000000x1, .f32⟩
  | .hbm, ⟨51, _⟩ => ⟨S1000000x4, .f32⟩
  | .hbm, ⟨52, _⟩ => ⟨S1000000x4, .f32⟩
  | .hbm, ⟨53, _⟩ => ⟨S1000000x4, .f32⟩
  | .hbm, ⟨54, _⟩ => ⟨S_, .f32⟩
  | .hbm, ⟨55, _⟩ => ⟨S1000000, .f32⟩
  | .hbm, ⟨56, _⟩ => ⟨S1000000x1, .f32⟩
  | .hbm, ⟨57, _⟩ => ⟨S1000000x4, .f32⟩
  | .hbm, ⟨58, _⟩ => ⟨S1000000x4, .f32⟩
  | .hbm, ⟨59, _⟩ => ⟨S1000000x4x1, .f32⟩
  | .hbm, ⟨60, _⟩ => ⟨S1000000x4x16, .f32⟩
  | .hbm, ⟨61, _⟩ => ⟨S1000000x4x16, .f32⟩
  | .hbm, ⟨62, _⟩ => ⟨S_, .f32⟩
  | .hbm, ⟨63, _⟩ => ⟨S100000x4x16, .f32⟩
  | .hbm, ⟨64, _⟩ => ⟨S1000000x1, .i32⟩
  | .hbm, ⟨65, _⟩ => ⟨S100000x4x16, .f32⟩
  | .hbm, ⟨66, _⟩ => ⟨S_, .f32⟩
  | .hbm, ⟨67, _⟩ => ⟨S100000x4x16, .f32⟩
  | .hbm, ⟨68, _⟩ => ⟨S100000x4x16, .f32⟩
  | .hbm, ⟨69, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  shapeCasts_S100000x64_S100000x4x16 : S100000x64.ShapeCasts S100000x4x16
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x4x16_S1000000x4x16_0_1_2 : S1x4x16.BroadcastsInDim S1000000x4x16 (![0, 1, 2] : Fin 3 → Fin S1000000x4x16.rank)
  reducesTo_S1000000x4x16_S1000000x4_d2 : S1000000x4x16.ReducesTo [2] S1000000x4
  h_S_ : 0 < S_.numel
  bcast_S_S1000000x4 : S_.BroadcastsInDim S1000000x4 (![] : Fin 0 → Fin S1000000x4.rank)
  reducesTo_S1000000x4_S1000000_d1 : S1000000x4.ReducesTo [1] S1000000
  bcast_S1000000x1_S1000000x4_0_1 : S1000000x1.BroadcastsInDim S1000000x4 (![0, 1] : Fin 2 → Fin S1000000x4.rank)
  bcast_S1000000x4_S1000000x4x1_0_1 : S1000000x4.BroadcastsInDim S1000000x4x1 (![0, 1] : Fin 2 → Fin S1000000x4x1.rank)
  bcast_S1000000x4x1_S1000000x4x16_0_1_2 : S1000000x4x1.BroadcastsInDim S1000000x4x16 (![0, 1, 2] : Fin 3 → Fin S1000000x4x16.rank)
  bcast_S_S100000x4x16 : S_.BroadcastsInDim S100000x4x16 (![] : Fin 0 → Fin S100000x4x16.rank)
  shapeCasts_S100000x4x16_S100000x64 : S100000x4x16.ShapeCasts S100000x64
  dot_S100000x128_S128x64_S100000x64_1_0_0_1_n_n_wf : DotDims.WF S100000x128 S128x64 S100000x64 [1] [0] [0] [1] [] []
  gather_S100000x4x16_S1000000x1_S1000000x4x16_12_0_n_n_0_1_1416_wf : GatherDims.WF S100000x4x16 S1000000x1 S1000000x4x16 [1, 2] [0] [] [0] [] 1 ![1, 4, 16]
  scatter_S100000x4x16_S1000000x1_S1000000x4x16_12_0_0_1_wf : ScatterDims.WF S100000x4x16 S1000000x1 S1000000x4x16 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x4x16_S1000000x1_S1000000x4x16_12_0_n_n_0_1_1416 : GatherDims S100000x4x16 S1000000x1 S1000000x4x16 where
  offsetDims := [1, 2]
  collapsedSliceDims := [0]
  operandBatchingDims := []
  startIndicesBatchingDims := []
  startIndexMap := [0]
  indexVectorDim := 1
  sliceSizes := ![1, 4, 16]
  wf := gather_S100000x4x16_S1000000x1_S1000000x4x16_12_0_n_n_0_1_1416_wf
def scatter_S100000x4x16_S1000000x1_S1000000x4x16_12_0_0_1 : ScatterDims S100000x4x16 S1000000x1 S1000000x4x16 where
  updateWindowDims := [1, 2]
  insertedWindowDims := [0]
  scatterDimsToOperandDims := [0]
  indexVectorDim := 1
  wf := scatter_S100000x4x16_S1000000x1_S1000000x4x16_12_0_0_1_wf

class Facts : Prop extends Facts₀ where

variable [Facts]
-- ==== Proof.Spec.lean ====
/-
  What both programs compute, as functions of the argument arrays, index by index, over the extended reals.

  * The projection: row `p`, column `q` of `h · W` is `∑ k, h[p,k] · W[k,q]`.
  * One edge's messages. An edge carries two gathered rows of the projection, `xs` (its source node's) and `xd`
    (its destination node's), each 4 heads × 16 features. Head `g`'s logit is
    `∑ k, xs[g,k]·a_src[g,k] + ∑ k, xd[g,k]·a_dst[g,k]`; it passes through the leaky rectifier with slope 0.2; the
    four heads' values are turned into weights by a softmax over the HEADS (subtract their maximum, exponentiate,
    divide by the sum); and the message of head `g`, feature `f` is that weight times `xs[g,f]`.
  Nothing here needs a finite input: sums, products and maxima of extended reals are taken as they come, and both
  programs take them in the same way.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The projection -/

/-- Entry `(p, q)` of the product of a `100000 × 128` and a `128 × 64` matrix. -/
def matAt {n : Nat} (h : (⟨2, ![n, 128]⟩ : Shape).Idx → EReal) (W : (⟨2, ![128, 64]⟩ : Shape).Idx → EReal)
    (p : Fin n) (q : Fin 64) : EReal :=
  ∑ k : Fin 128, h (ix2 p k) * W (ix2 k q)

/-- The product as an array. -/
def mat {n : Nat} (h : (⟨2, ![n, 128]⟩ : Shape).Idx → EReal) (W : (⟨2, ![128, 64]⟩ : Shape).Idx → EReal) :
    (⟨2, ![n, 64]⟩ : Shape).Idx → EReal :=
  fun i => matAt h W ⟨(i 0).val, (i 0).isLt⟩ ⟨(i 1).val, (i 1).isLt⟩

/-! ## One edge -/

/-- The rectifier's negative slope, as the f32 word `0.2` rounds to (both programs carry this word). -/
abbrev slope : EReal := Ideal.ofBits .f32 0x3E4CCCCD#32
/-- The word a maximum starts from: `-∞`. -/
abbrev negInf : EReal := Ideal.ofBits .f32 0xFF800000#32
/-- The word a comparison with zero uses. -/
abbrev zeroW : EReal := Ideal.ofBits .f32 0x00000000#32

/-- Head `g`'s attention logit: the source row against `a_src` plus the destination row against `a_dst`. -/
def logit (xs xd as ad : Fin 4 → Fin 16 → EReal) (g : Fin 4) : EReal :=
  (∑ k : Fin 16, xs g k * as g k) + (∑ k : Fin 16, xd g k * ad g k)

/-- The leaky rectifier: `s` where `s ≥ 0`, `0.2 · s` elsewhere. -/
def leaky (s : EReal) : EReal :=
  Scalar.select (FloatOps.cmpf (F := Ideal) (φ := .f32) .oge s zeroW) s (slope * s)

/-- Head `g`'s rectified logit. -/
def act (xs xd as ad : Fin 4 → Fin 16 → EReal) (g : Fin 4) : EReal := leaky (logit xs xd as ad g)

/-- The largest of the four heads' rectified logits (from `-∞`). -/
def top (xs xd as ad : Fin 4 → Fin 16 → EReal) : EReal :=
  (Finset.univ : Finset (Fin 4)).fold max negInf (act xs xd as ad)

/-- Head `g`'s unnormalised softmax weight. -/
def wexp (xs xd as ad : Fin 4 → Fin 16 → EReal) (g : Fin 4) : EReal :=
  Ideal.exp (act xs xd as ad g - top xs xd as ad)

/-- The edge's message at head `g`, feature `f`: the softmax weight over heads times the source row. -/
def msg (xs xd as ad : Fin 4 → Fin 16 → EReal) (g : Fin 4) (f : Fin 16) : EReal :=
  Ideal.div (wexp xs xd as ad g) (∑ g' : Fin 4, wexp xs xd as ad g') * xs g f

/-! ## All edges -/

/-- Row `e` of an `n × 4 × 16` array, as heads × features. -/
def row {n : Nat} (x : (⟨3, ![n, 4, 16]⟩ : Shape).Idx → EReal) (e : Fin n) : Fin 4 → Fin 16 → EReal :=
  fun g k => x (ix3 e g k)

/-- The messages of `n` edges: each edge's own two rows against the one row of `a_src` and of `a_dst`. -/
def msgs {n : Nat} (xs xd : (⟨3, ![n, 4, 16]⟩ : Shape).Idx → EReal) (as ad : (⟨3, ![1, 4, 16]⟩ : Shape).Idx → EReal) :
    (⟨3, ![n, 4, 16]⟩ : Shape).Idx → EReal :=
  fun i => msg (row xs ⟨(i 0).val, (i 0).isLt⟩) (row xd ⟨(i 0).val, (i 0).isLt⟩) (row as 0) (row ad 0)
    ⟨(i 1).val, (i 1).isLt⟩ ⟨(i 2).val, (i 2).isLt⟩

/-- The messages at an index given by its coordinates. -/
theorem msgs_ix3 {n : Nat} (xs xd : (⟨3, ![n, 4, 16]⟩ : Shape).Idx → EReal) (as ad : (⟨3, ![1, 4, 16]⟩ : Shape).Idx → EReal)
    (e : Fin n) (g : Fin 4) (f : Fin 16) :
    msgs xs xd as ad (ix3 e g f) = msg (row xs e) (row xd e) (row as 0) (row ad 0) g f := rfl

/-- The product at an index given by its coordinates. -/
theorem mat_ix2 {n : Nat} (h : (⟨2, ![n, 128]⟩ : Shape).Idx → EReal) (W : (⟨2, ![128, 64]⟩ : Shape).Idx → EReal)
    (p : Fin n) (q : Fin 64) : mat h W (ix2 p q) = matAt h W p q := rfl

end Cert.Spec

end
-- ==== Proof.MatValue.lean ====
/-
  The first launch: the projection `h · W`, computed 2000 rows at a time.
  Each grid point multiplies its own 2000-row slab of `h` by the whole of `W`; the slabs tile the rows, so the array the
  launch leaves is the whole product.
-/
import proofs.«405144_j188978561180_2_alg».proof.Proof.Gen.KernelIdeal.Frame
import proofs.«405144_j188978561180_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The slab product at an index

The body multiplies a 2000 × 128 slab by the 128 × 64 matrix, contracting the slab's columns with the matrix's rows. Read
at output index `(r, q)` and contraction index `k`, the left operand is taken at `(r, k)` and the right at `(k, q)`: the four
coordinate facts, then the entry as a sum over `k`. -/

/-- The left operand's row is the output's row. -/
theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column is the contraction index. -/
theorem lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row is the contraction index. -/
theorem rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column is the output's column. -/
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(r, q)` of what the body computes from a slab `x0` and the matrix `x1`: narrowing to bf16 changes nothing at the
    ideal values and the accumulator starts at zero, so it is `∑ k, x0 (r, k) · x1 (k, q)`. -/
theorem slab_apply (x0 : FVec Ideal S2000x128 .f32) (x1 : FVec Ideal S128x64 .f32) (r : Fin 2000) (q : Fin 64) :
    k0_pay1 (F := Ideal) x0 x1 (ix2 r q) = ∑ k : Fin 128, x0 (ix2 r k) * x1 (ix2 k q) := by
  unfold k0_pay1
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 r q) ((ValueIdx.contrEquiv1 dot_S2000x128_S128x64_S2000x64_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x64_S2000x64_1_0_0_1_n_n.rhsIdx (ix2 r q) ((ValueIdx.contrEquiv1 dot_S2000x128_S128x64_S2000x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## What a grid point writes back -/

/-- The body reads and writes its whole blocks: every offset is zero. -/
theorem zero_off : (![0, 0] : Fin 2 → Nat) = fun _ => 0 := funext fun a => by fin_cases a <;> rfl

/-- The index maps over the grid: point `t` takes slab `t` of the rows of `h` and of the product, all their columns, and
    the whole of `W`. -/
theorem slab_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r`, column `k` of the slab of `h` at point `t` is row `2000·t + r`, column `k` of `h`. -/
theorem slab_h (c : Dev nD) (t : Fin cfg0.N) (r : Fin 2000) (k : Fin 128) (hr : 2000 * t.val + r.val < 100000) :
    (iblk0 (F := Ideal) V c 0 t : S2000x128.Idx → EReal) (ix2 r k)
      = (V c main_arg0 : S100000x128.Idx → EReal) (ix2 ⟨2000 * t.val + r.val, hr⟩ k) := by
  obtain ⟨e0, e1, -⟩ := slab_index t
  show (V c main_arg0 : S100000x128.Idx → EReal) (((cfg0.win 0).blk t).view.emb (ix2 r k)) = _
  refine congrArg _ (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * k.val = k.val; omega

/-- The block of `W` at any point is `W`. -/
theorem slab_W (c : Dev nD) (t : Fin cfg0.N) (k : Fin 128) (q : Fin 64) :
    (iblk0 (F := Ideal) V c 1 t : S128x64.Idx → EReal) (ix2 k q) = (V c main_arg2 : S128x64.Idx → EReal) (ix2 k q) := by
  obtain ⟨-, -, e2, e3, -⟩ := slab_index t
  show (V c main_arg2 : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Row `r`, column `q` of the output block at point `t` sits at row `2000·t + r`, column `q` of the product's array. -/
theorem slab_out (t : Fin cfg0.N) (r : Fin 2000) (q : Fin 64) (hr : 2000 * t.val + r.val < 100000) :
    ((cfg0.win 2).blk t).view.emb (ix2 r q) = (ix2 ⟨2000 * t.val + r.val, hr⟩ q : S100000x64.Idx) := by
  obtain ⟨-, -, -, -, e4, e5⟩ := slab_index t
  refine funext fun a => Fin.ext ?_
  match a with
  | ⟨0, _⟩ => show win0_2.index t (0 : Fin 2) * 2000 + 1 * r.val = 2000 * t.val + r.val; omega
  | ⟨1, _⟩ => show win0_2.index t (1 : Fin 2) * 64 + 1 * q.val = q.val; omega

/-- What point `t` writes back is its block of the product `h · W`. -/
theorem flushed_eq (c : Dev nD) (t : Fin cfg0.N) :
    (dat0 (F := Ideal) V c).flushed 2 t = ((cfg0.win 2).blk t).view.read (Elt Ideal)
      (Cert.Spec.mat (n := 100000) (V c main_arg0 : S100000x128.Idx → EReal) (V c main_arg2 : S128x64.Idx → EReal)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x64) zero_off]
  funext j
  obtain ⟨r, q, rfl⟩ : ∃ (r : Fin 2000) (q : Fin 64), j = ix2 r q := ⟨j 0, j 1, eq_ix2 (n0 := 2000) (n1 := 64) j⟩
  have ht : t.val < 50 := lt_of_lt_of_eq t.isLt N_0
  have hr : 2000 * t.val + r.val < 100000 := by have := r.isLt; omega
  show k0_pay1 (F := Ideal) (iblk0 V c 0 t) (iblk0 V c 1 t) (ix2 r q)
    = Cert.Spec.mat (n := 100000) (V c main_arg0 : S100000x128.Idx → EReal) (V c main_arg2 : S128x64.Idx → EReal)
        (((cfg0.win 2).blk t).view.emb (ix2 r q))
  rw [slab_apply, slab_out t r q hr, Cert.Spec.mat_ix2]
  unfold Cert.Spec.matAt
  exact Finset.sum_congr rfl fun k _ => by rw [slab_h V c t r k hr, slab_W V c t k q]

/-! ## The slabs tile the rows -/

/-- An index of the product's array is in point `t`'s block iff each coordinate is in the block's range on its axis. -/
theorem mem_slab (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Row `r` of the product lies in the slab of point `r / 2000`. -/
theorem slabs_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, e4, e5⟩ := slab_index ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_slab]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 64 ≤ (i 1).val ∧ (i 1).val < win0_2.index ⟨(i 0).val / 2000, ht⟩ (1 : Fin 2) * 64 + 64; omega

/-- The array the first launch leaves in its output window is the product of the two arrays it found in its input
    windows. -/
theorem final0 (c : Dev nD) :
    (dat0 (F := Ideal) V c).arrAt 2 cfg0.N
      = Cert.Spec.mat (n := 100000) (V c main_arg0 : S100000x128.Idx → EReal) (V c main_arg2 : S128x64.Idx → EReal) :=
  (dat0 (F := Ideal) V c).arrAt_eq_of_cover 2 _ (fun t _ => flushed_eq V c t) slabs_cover

end Cert.KernelIdeal.MatValue

end
-- ==== Proof.AttnValue.lean ====
/-
  The second launch: the per-edge attention messages, computed 1000 edges at a time.
  Each grid point takes its own 1000 edges' source and destination rows and the one row of `a_src` and of `a_dst`; an
  edge's message depends on that edge's rows only, and the 1000-edge slabs tile the edges, so the array the launch
  leaves is the messages of all edges.
-/
import proofs.«405144_j188978561180_2_alg».proof.Proof.Gen.KernelIdeal.Frame
import proofs.«405144_j188978561180_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The layout operations of the attention body, read at coordinates -/

/-- The inserted index of a lane sum: the lane put back on the last axis. -/
theorem lift_lane (h : S1000x4x16.Reduces [2] S1000x4) (r : Fin 1000) (g : Fin 4) (k : Fin 16) :
    h.lift (ix2 r g) k = ix3 r g k := by
  funext a; apply Fin.ext
  match a with
  | ⟨0, _⟩ => rfl
  | ⟨1, _⟩ => rfl
  | ⟨2, _⟩ => rfl

/-- The inserted index of a reduction over the heads: the head put back on the last axis. -/
theorem lift_head (h : S1000x4.Reduces [1] S1000) (r : Fin 1000) (g : Fin 4) :
    h.lift (ix1 r) g = ix2 r g := by
  funext a; apply Fin.ext
  match a with
  | ⟨0, _⟩ => rfl
  | ⟨1, _⟩ => rfl

/-- A sum over the 16 lanes, at edge `r` and head `g`. -/
theorem laneSum_apply (src : FVec Ideal S1000x4x16 .f32) (h : S1000x4x16.Reduces [2] S1000x4) (hφ : FKind.Formats .f32)
    (hacc : (0x00000000#32 : BitVec 32) = 0x00000000#32) (r : Fin 1000) (g : Fin 4) :
    multiReduction (F := Ideal) .add [2] S1000x4 src 0x00000000#32 h hφ hacc (ix2 r g) = ∑ k : Fin 16, src (ix3 r g k) := by
  refine (Ideal.multiReduction_add_single src 0x00000000#32 h hφ hacc (ix2 r g)).trans ?_
  exact Finset.sum_congr rfl fun k _ => congrArg src (lift_lane h r g k)

/-- A sum over the 4 heads, at edge `r`. -/
theorem headSum_apply (src : FVec Ideal S1000x4 .f32) (h : S1000x4.Reduces [1] S1000) (hφ : FKind.Formats .f32)
    (hacc : (0x00000000#32 : BitVec 32) = 0x00000000#32) (r : Fin 1000) :
    multiReduction (F := Ideal) .add [1] S1000 src 0x00000000#32 h hφ hacc (ix1 r) = ∑ g : Fin 4, src (ix2 r g) := by
  refine (Ideal.multiReduction_add_single src 0x00000000#32 h hφ hacc (ix1 r)).trans ?_
  exact Finset.sum_congr rfl fun g _ => congrArg src (lift_head h r g)

/-- A maximum over the 4 heads from `-∞`, at edge `r`. -/
theorem headMax_apply (src : FVec Ideal S1000x4 .f32) (h : S1000x4.Reduces [1] S1000) (hφ : FKind.Formats .f32)
    (hacc : (0xFF800000#32 : BitVec 32) = 0xFF800000#32) (r : Fin 1000) :
    multiReduction (F := Ideal) .maximumf [1] S1000 src 0xFF800000#32 h hφ hacc (ix1 r)
      = (Finset.univ : Finset (Fin 4)).fold max Cert.Spec.negInf (fun g => src (ix2 r g)) := by
  refine (Ideal.multiReduction_maximumf_single src 0xFF800000#32 h hφ hacc (ix1 r)).trans ?_
  exact congrArg (fun f => Finset.fold max Cert.Spec.negInf f (Finset.univ : Finset (Fin 4))) (funext fun g => congrArg src (lift_head h r g))

/-- The one row of `a_src` / `a_dst` broadcast over the edges. -/
theorem bcastRow_apply {α : Type} (v : S1x4x16.Idx → α) (h : S1x4x16.Broadcasts S1000x4x16) (r : Fin 1000) (g : Fin 4) (f : Fin 16) :
    broadcastTo S1000x4x16 v h (ix3 r g f) = v (ix3 (0 : Fin 1) g f) := by
  refine broadcastTo_apply v h (ix3 r g f) (ix3 (0 : Fin 1) g f) fun ax => ?_
  match ax with
  | ⟨0, _⟩ => rfl
  | ⟨1, _⟩ => rfl
  | ⟨2, _⟩ => rfl

/-- A per-edge column broadcast over the heads. -/
theorem bcastCol_apply {α : Type} (v : S1000x1.Idx → α) (h : S1000x1.Broadcasts S1000x4) (r : Fin 1000) (g : Fin 4) :
    broadcastTo S1000x4 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- A per-edge, per-head weight broadcast over the features. -/
theorem bcastFeat_apply {α : Type} (v : S1000x4x1.Idx → α) (h : S1000x4x1.Broadcasts S1000x4x16) (r : Fin 1000) (g : Fin 4) (f : Fin 16) :
    broadcastTo S1000x4x16 v h (ix3 r g f) = v (ix3 r g (0 : Fin 1)) := by
  refine broadcastTo_apply v h (ix3 r g f) (ix3 r g (0 : Fin 1)) fun ax => ?_
  match ax with
  | ⟨0, _⟩ => rfl
  | ⟨1, _⟩ => rfl
  | ⟨2, _⟩ => rfl

/-- A per-edge vector viewed as a column. -/
theorem castCol_apply {α : Type} (v : S1000.Idx → α) (h : S1000.ShapeCasts S1000x1) (r : Fin 1000) (u : Fin 1) :
    shapeCast S1000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A per-edge, per-head matrix viewed with a trailing unit axis. -/
theorem castFeat_apply {α : Type} (v : S1000x4.Idx → α) (h : S1000x4.ShapeCasts S1000x4x1) (r : Fin 1000) (g : Fin 4) (u : Fin 1) :
    shapeCast S1000x4x1 v h (ix3 r g u) = v (ix2 r g) :=
  shapeCast_apply v h _ _ (by
    have hu : u.val = 0 := by omega
    rw [Shape.rowMajor_val_three, Shape.rowMajor_val_two]
    show r.val * 4 + g.val = (r.val * 4 + g.val) * 1 + u.val
    rw [hu, Nat.mul_one, Nat.add_zero])

/-! ## The attention body's intermediate values, as functions of the four loaded blocks

Each is one stretch of the body's operations over the blocks `x0` (source rows), `x2` (destination rows), `x4` (`a_src`),
`x5` (`a_dst`), read at an edge `r` of the slab, a head `g` and a feature `f`. -/

section Payload

variable (x0 x2 : FVec Ideal S1000x4x16 .f32) (x4 x5 : FVec Ideal S1x4x16 .f32)

/-- The logits of the slab's edges, per head: the two lane sums added. -/
def logitV : FVec Ideal S1000x4 .f32 :=
  addf
    (multiReduction (F := Ideal) .add [2] S1000x4
      (mulf (shapeCast S1000x4x16 x0 shapeCasts_S1000x4x16_S1000x4x16) (broadcastTo S1000x4x16 x4 broadcasts_S1x4x16_S1000x4x16))
      0x00000000#32 reduces_S1000x4x16_S1000x4 (.inl rfl) rfl)
    (multiReduction (F := Ideal) .add [2] S1000x4
      (mulf (shapeCast S1000x4x16 x2 shapeCasts_S1000x4x16_S1000x4x16) (broadcastTo S1000x4x16 x5 broadcasts_S1x4x16_S1000x4x16))
      0x00000000#32 reduces_S1000x4x16_S1000x4 (.inl rfl) rfl)

/-- The rectified logits. -/
def actV : FVec Ideal S1000x4 .f32 :=
  select (cmpf .oge (logitV x0 x2 x4 x5) (broadcast S1000x4 (Scalar.ofBits (F := Ideal) .f32 0x00000000#32)))
    (logitV x0 x2 x4 x5)
    (mulf (broadcast S1000x4 (Scalar.ofBits (F := Ideal) .f32 0x3E4CCCCD#32)) (logitV x0 x2 x4 x5))

/-- Each edge's largest rectified logit. -/
def topV : FVec Ideal S1000 .f32 :=
  multiReduction (F := Ideal) .maximumf [1] S1000 (actV x0 x2 x4 x5) 0xFF800000#32 reduces_S1000x4_S1000 (.inl rfl) rfl

/-- The unnormalised softmax weights. -/
def wexpV : FVec Ideal S1000x4 .f32 :=
  exp (subf (actV x0 x2 x4 x5)
    (broadcastTo S1000x4 (shapeCast S1000x1 (topV x0 x2 x4 x5) shapeCasts_S1000_S1000x1) broadcasts_S1000x1_S1000x4))

/-- Each edge's sum of weights over the heads. -/
def wsumV : FVec Ideal S1000 .f32 :=
  multiReduction (F := Ideal) .add [1] S1000 (wexpV x0 x2 x4 x5) 0x00000000#32 reduces_S1000x4_S1000 (.inl rfl) rfl

/-- The body's stored value is the normalised weight, spread over the features, times the source rows. -/
theorem pay_eq : k1_pay1 (F := Ideal) x0 x2 x4 x5
    = mulf
        (broadcastTo S1000x4x16
          (shapeCast S1000x4x1
            (divf (wexpV x0 x2 x4 x5)
              (broadcastTo S1000x4 (shapeCast S1000x1 (wsumV x0 x2 x4 x5) shapeCasts_S1000_S1000x1) broadcasts_S1000x1_S1000x4))
            shapeCasts_S1000x4_S1000x4x1)
          broadcasts_S1000x4x1_S1000x4x16)
        (shapeCast S1000x4x16 x0 shapeCasts_S1000x4x16_S1000x4x16) := rfl

/-- The logit at an edge and a head is the specification's, of that edge's rows. -/
theorem logitV_apply (r : Fin 1000) (g : Fin 4) :
    logitV x0 x2 x4 x5 (ix2 r g)
      = Cert.Spec.logit (Cert.Spec.row x0 r) (Cert.Spec.row x2 r) (Cert.Spec.row x4 0) (Cert.Spec.row x5 0) g := by
  unfold logitV
  refine (addf_apply _ _ _).trans ?_
  refine congrArg₂ (· + ·) ((laneSum_apply _ _ _ _ r g).trans ?_) ((laneSum_apply _ _ _ _ r g).trans ?_)
  · refine Finset.sum_congr rfl fun k _ => ?_
    refine (mulf_apply _ _ _).trans ?_
    refine congrArg₂ (· * ·) ?_ (bcastRow_apply x4 _ r g k)
    exact congrFun (shapeCast_self x0 _) _
  · refine Finset.sum_congr rfl fun k _ => ?_
    refine (mulf_apply _ _ _).trans ?_
    refine congrArg₂ (· * ·) ?_ (bcastRow_apply x5 _ r g k)
    exact congrFun (shapeCast_self x2 _) _

/-- The rectified logit at an edge and a head. -/
theorem actV_apply (r : Fin 1000) (g : Fin 4) :
    actV x0 x2 x4 x5 (ix2 r g)
      = Cert.Spec.act (Cert.Spec.row x0 r) (Cert.Spec.row x2 r) (Cert.Spec.row x4 0) (Cert.Spec.row x5 0) g := by
  show Cert.Spec.leaky (logitV x0 x2 x4 x5 (ix2 r g)) = _
  exact congrArg Cert.Spec.leaky (logitV_apply x0 x2 x4 x5 r g)

/-- The largest rectified logit of an edge. -/
theorem topV_apply (r : Fin 1000) :
    topV x0 x2 x4 x5 (ix1 r)
      = Cert.Spec.top (Cert.Spec.row x0 r) (Cert.Spec.row x2 r) (Cert.Spec.row x4 0) (Cert.Spec.row x5 0) := by
  unfold topV
  refine (headMax_apply _ _ _ _ r).trans ?_
  exact congrArg (fun f => Finset.fold max Cert.Spec.negInf f (Finset.univ : Finset (Fin 4)))
    (funext fun g => actV_apply x0 x2 x4 x5 r g)

/-- The softmax weight at an edge and a head. -/
theorem wexpV_apply (r : Fin 1000) (g : Fin 4) :
    wexpV x0 x2 x4 x5 (ix2 r g)
      = Cert.Spec.wexp (Cert.Spec.row x0 r) (Cert.Spec.row x2 r) (Cert.Spec.row x4 0) (Cert.Spec.row x5 0) g := by
  show Ideal.exp (actV x0 x2 x4 x5 (ix2 r g)
      - broadcastTo S1000x4 (shapeCast S1000x1 (topV x0 x2 x4 x5) shapeCasts_S1000_S1000x1) broadcasts_S1000x1_S1000x4 (ix2 r g)) = _
  refine congrArg Ideal.exp (congrArg₂ (· - ·) (actV_apply x0 x2 x4 x5 r g) ?_)
  refine (bcastCol_apply _ _ r g).trans ?_
  refine (castCol_apply _ _ r 0).trans ?_
  exact topV_apply x0 x2 x4 x5 r

/-- The sum of an edge's weights over the heads. -/
theorem wsumV_apply (r : Fin 1000) :
    wsumV x0 x2 x4 x5 (ix1 r)
      = ∑ g' : Fin 4, Cert.Spec.wexp (Cert.Spec.row x0 r) (Cert.Spec.row x2 r) (Cert.Spec.row x4 0) (Cert.Spec.row x5 0) g' := by
  unfold wsumV
  refine (headSum_apply _ _ _ _ r).trans ?_
  exact Finset.sum_congr rfl fun g _ => wexpV_apply x0 x2 x4 x5 r g

/-- THE BODY'S STORED VALUE AT AN EDGE, A HEAD AND A FEATURE is that edge's message. -/
theorem pay_apply (r : Fin 1000) (g : Fin 4) (f : Fin 16) :
    k1_pay1 (F := Ideal) x0 x2 x4 x5 (ix3 r g f)
      = Cert.Spec.msg (Cert.Spec.row x0 r) (Cert.Spec.row x2 r) (Cert.Spec.row x4 0) (Cert.Spec.row x5 0) g f := by
  rw [pay_eq]
  refine (mulf_apply _ _ _).trans ?_
  refine congrArg₂ (· * ·) ?_ (congrFun (shapeCast_self x0 _) _)
  refine (bcastFeat_apply _ _ r g f).trans ?_
  refine (castFeat_apply _ _ r g 0).trans ?_
  refine (divf_apply _ _ _).trans ?_
  refine congrArg₂ Ideal.div (wexpV_apply x0 x2 x4 x5 r g) ?_
  refine (bcastCol_apply _ _ r g).trans ?_
  refine (castCol_apply _ _ r 0).trans ?_
  exact wsumV_apply x0 x2 x4 x5 r

/-- The body's stored block is the messages of the slab's 1000 edges. -/
theorem pay_eq_msgs : k1_pay1 (F := Ideal) x0 x2 x4 x5 = Cert.Spec.msgs (n := 1000) x0 x2 x4 x5 := by
  funext j
  obtain ⟨r, g, f, rfl⟩ : ∃ (r : Fin 1000) (g : Fin 4) (f : Fin 16), j = ix3 r g f := ⟨j 0, j 1, j 2, eq_ix3 j⟩
  exact (pay_apply x0 x2 x4 x5 r g f).trans (Cert.Spec.msgs_ix3 x0 x2 x4 x5 r g f).symm

end Payload

/-! ## From the slabs to the array

Grid point `t` takes edges `1000·t … 1000·t + 999` of the source and destination rows and the whole of `a_src` and
`a_dst`, and writes the same edges of the result. -/

/-- The zero offsets of a whole-buffer access. -/
theorem hz : (![0, 0, 0] : Fin 3 → Nat) = fun _ => 0 := funext fun a => by fin_cases a <;> rfl

/-- The index maps over the grid: the three edge-tiled windows sit at block `t` along the edges, the two
    whole-array windows at block `0`. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- A grid point is below 1000. -/
theorem point_lt (t : Fin cfg1.N) : t.val < 1000 := Nat.lt_of_lt_of_eq t.isLt N_1

section Blocks

/-- Point `t`'s block of the source rows, at edge `r` of the slab, is the array at edge `1000·t + r`. -/
theorem iblk_src (c : Dev nD) (t : Fin cfg1.N) (r : Fin 1000) (g : Fin 4) (k : Fin 16) (e : Fin 1000000)
    (he : e.val = 1000 * t.val + r.val) :
    (iblk1 (F := Ideal) V c 0 t : S1000x4x16.Idx → EReal) (ix3 r g k) = (V c main_v6 : S1000000x4x16.Idx → EReal) (ix3 e g k) := by
  obtain ⟨⟨h0, h1, h2⟩, -⟩ := idx_facts t
  unfold iblk1
  rw [View.read_apply]
  show V c main_v6 _ = V c main_v6 _
  congr 1
  funext a; apply Fin.ext
  match a with
  | ⟨0, _⟩ => show win1_0.index t (0 : Fin 3) * 1000 + 1 * r.val = e.val; rw [h0, he]; omega
  | ⟨1, _⟩ => show win1_0.index t (1 : Fin 3) * 4 + 1 * g.val = g.val; rw [h1]; omega
  | ⟨2, _⟩ => show win1_0.index t (2 : Fin 3) * 16 + 1 * k.val = k.val; rw [h2]; omega

/-- Point `t`'s block of the destination rows, at edge `r` of the slab, is the array at edge `1000·t + r`. -/
theorem iblk_dst (c : Dev nD) (t : Fin cfg1.N) (r : Fin 1000) (g : Fin 4) (k : Fin 16) (e : Fin 1000000)
    (he : e.val = 1000 * t.val + r.val) :
    (iblk1 (F := Ideal) V c 1 t : S1000x4x16.Idx → EReal) (ix3 r g k) = (V c main_v7 : S1000000x4x16.Idx → EReal) (ix3 e g k) := by
  obtain ⟨-, ⟨h0, h1, h2⟩, -⟩ := idx_facts t
  unfold iblk1
  rw [View.read_apply]
  show V c main_v7 _ = V c main_v7 _
  congr 1
  funext a; apply Fin.ext
  match a with
  | ⟨0, _⟩ => show win1_1.index t (0 : Fin 3) * 1000 + 1 * r.val = e.val; rw [h0, he]; omega
  | ⟨1, _⟩ => show win1_1.index t (1 : Fin 3) * 4 + 1 * g.val = g.val; rw [h1]; omega
  | ⟨2, _⟩ => show win1_1.index t (2 : Fin 3) * 16 + 1 * k.val = k.val; rw [h2]; omega

/-- Every point's block of `a_src` is the whole array. -/
theorem iblk_asrc (c : Dev nD) (t : Fin cfg1.N) :
    (iblk1 (F := Ideal) V c 2 t : S1x4x16.Idx → EReal) = (V c main_arg3 : S1x4x16.Idx → EReal) := by
  obtain ⟨-, -, ⟨h0, h1, h2⟩, -⟩ := idx_facts t
  funext y
  unfold iblk1
  rw [View.read_apply]
  show V c main_arg3 _ = V c main_arg3 y
  congr 1
  funext a; apply Fin.ext
  match a with
  | ⟨0, _⟩ => show win1_2.index t (0 : Fin 3) * 1 + 1 * (y 0).val = (y 0).val; rw [h0]; omega
  | ⟨1, _⟩ => show win1_2.index t (1 : Fin 3) * 4 + 1 * (y 1).val = (y 1).val; rw [h1]; omega
  | ⟨2, _⟩ => show win1_2.index t (2 : Fin 3) * 16 + 1 * (y 2).val = (y 2).val; rw [h2]; omega

/-- Every point's block of `a_dst` is the whole array. -/
theorem iblk_adst (c : Dev nD) (t : Fin cfg1.N) :
    (iblk1 (F := Ideal) V c 3 t : S1x4x16.Idx → EReal) = (V c main_arg4 : S1x4x16.Idx → EReal) := by
  obtain ⟨-, -, -, ⟨h0, h1, h2⟩, -⟩ := idx_facts t
  funext y
  unfold iblk1
  rw [View.read_apply]
  show V c main_arg4 _ = V c main_arg4 y
  congr 1
  funext a; apply Fin.ext
  match a with
  | ⟨0, _⟩ => show win1_3.index t (0 : Fin 3) * 1 + 1 * (y 0).val = (y 0).val; rw [h0]; omega
  | ⟨1, _⟩ => show win1_3.index t (1 : Fin 3) * 4 + 1 * (y 1).val = (y 1).val; rw [h1]; omega
  | ⟨2, _⟩ => show win1_3.index t (2 : Fin 3) * 16 + 1 * (y 2).val = (y 2).val; rw [h2]; omega

/-- Position `(r, g, f)` of point `t`'s block of the result is the array's `(1000·t + r, g, f)`. -/
theorem emb_out (t : Fin cfg1.N) (r : Fin 1000) (g : Fin 4) (f : Fin 16) (e : Fin 1000000) (he : e.val = 1000 * t.val + r.val) :
    ((cfg1.win 4).blk t).view.emb (ix3 r g f) = (ix3 e g f : S1000000x4x16.Idx) := by
  obtain ⟨-, -, -, -, ⟨h0, h1, h2⟩⟩ := idx_facts t
  funext a; apply Fin.ext
  match a with
  | ⟨0, _⟩ => show win1_4.index t (0 : Fin 3) * 1000 + 1 * r.val = e.val; rw [h0, he]; omega
  | ⟨1, _⟩ => show win1_4.index t (1 : Fin 3) * 4 + 1 * g.val = g.val; rw [h1]; omega
  | ⟨2, _⟩ => show win1_4.index t (2 : Fin 3) * 16 + 1 * f.val = f.val; rw [h2]; omega

/-- WHAT POINT `t` WRITES BACK is its block of the messages of all edges. -/
theorem flushed_eq (c : Dev nD) (t : Fin cfg1.N) :
    (dat1 (F := Ideal) V c).flushed 4 t = ((cfg1.win 4).blk t).view.read (Elt Ideal)
      (Cert.Spec.msgs (n := 1000000) (V c main_v6 : S1000000x4x16.Idx → EReal) (V c main_v7 : S1000000x4x16.Idx → EReal)
        (V c main_arg3 : S1x4x16.Idx → EReal) (V c main_arg4 : S1x4x16.Idx → EReal)) := by
  show (cfg1.win 4).cut (grid1.coords t) ((dat1 (F := Ideal) V c).after 4 t) = _
  rw [after1_4]
  unfold out1_4
  rw [View.canon_unit_zero hz]
  simp only [View.ld_unit_zero (S := S1000x4x16) hz, View.ld_unit_zero (S := S1x4x16) hz]
  rw [pay_eq_msgs]
  have ht := point_lt t
  funext j
  obtain ⟨r, g, f, rfl⟩ : ∃ (r : Fin 1000) (g : Fin 4) (f : Fin 16), j = ix3 r g f := ⟨j 0, j 1, j 2, eq_ix3 j⟩
  obtain ⟨e, he⟩ : ∃ e : Fin 1000000, e.val = 1000 * t.val + r.val := ⟨⟨1000 * t.val + r.val, by have := r.isLt; omega⟩, rfl⟩
  show Cert.Spec.msgs (n := 1000) _ _ _ _ (ix3 r g f)
    = Cert.Spec.msgs (n := 1000000) _ _ _ _ (((cfg1.win 4).blk t).view.emb (ix3 r g f))
  rw [emb_out t r g f e he, Cert.Spec.msgs_ix3, Cert.Spec.msgs_ix3, iblk_asrc V c t, iblk_adst V c t]
  have es : Cert.Spec.row (iblk1 (F := Ideal) V c 0 t : S1000x4x16.Idx → EReal) r
      = Cert.Spec.row (V c main_v6 : S1000000x4x16.Idx → EReal) e :=
    funext fun g' => funext fun k => iblk_src V c t r g' k e he
  have ed : Cert.Spec.row (iblk1 (F := Ideal) V c 1 t : S1000x4x16.Idx → EReal) r
      = Cert.Spec.row (V c main_v7 : S1000000x4x16.Idx → EReal) e :=
    funext fun g' => funext fun k => iblk_dst V c t r g' k e he
  rw [es, ed]

/-- An index of the result array is in point `t`'s block iff each coordinate is in the block's range on its axis. -/
theorem mem_blk (t : Fin cfg1.N) (i : S1000000x4x16.Idx) :
    i ∈ ((cfg1.win 4).blk t).view.set ↔ ∀ a : Fin 3, win1_4.index t a * S1000x4x16.size a ≤ (i a).val
      ∧ (i a).val < win1_4.index t a * S1000x4x16.size a + S1000x4x16.size a := by
  show i ∈ ((View.whole main_v8).slice (win1_4.rect t)).set ↔ _
  rw [View.set_slice_whole, Rect.mem_set_unit]
  exact Iff.rfl

/-- The slabs tile the edges: edge `e` is in the block of point `e / 1000`. -/
theorem covered (i : S1000000x4x16.Idx) :
    ∃ t : Fin cfg1.N, (cfg1.win 4).flush t = true ∧ i ∈ ((cfg1.win 4).blk t).view.set := by
  have hi0 : (i 0).val < 1000000 := (i 0).isLt
  have hi1 : (i 1).val < 4 := (i 1).isLt
  have hi2 : (i 2).val < 16 := (i 2).isLt
  obtain ⟨t, ht⟩ : ∃ t : Fin cfg1.N, t.val = (i 0).val / 1000 :=
    ⟨⟨(i 0).val / 1000, Nat.lt_of_lt_of_eq (by omega : (i 0).val / 1000 < 1000) N_1.symm⟩, rfl⟩
  obtain ⟨-, -, -, -, ⟨q0, q1, q2⟩⟩ := idx_facts t
  refine ⟨t, flush1_4 t, ?_⟩
  rw [mem_blk]
  intro a
  match a with
  | ⟨0, _⟩ =>
    show win1_4.index t (0 : Fin 3) * 1000 ≤ (i 0).val ∧ (i 0).val < win1_4.index t (0 : Fin 3) * 1000 + 1000
    rw [q0, ht]; omega
  | ⟨1, _⟩ =>
    show win1_4.index t (1 : Fin 3) * 4 ≤ (i 1).val ∧ (i 1).val < win1_4.index t (1 : Fin 3) * 4 + 4
    rw [q1]; omega
  | ⟨2, _⟩ =>
    show win1_4.index t (2 : Fin 3) * 16 ≤ (i 2).val ∧ (i 2).val < win1_4.index t (2 : Fin 3) * 16 + 16
    rw [q2]; omega

end Blocks

/-- The array the second launch leaves in its output window is the messages of all edges, from the four arrays it
    found in its input windows. -/
theorem final1 (c : Dev nD) :
    (dat1 (F := Ideal) V c).arrAt 4 cfg1.N
      = Cert.Spec.msgs (n := 1000000) (V c main_v6 : S1000000x4x16.Idx → EReal) (V c main_v7 : S1000000x4x16.Idx → EReal)
          (V c main_arg3 : S1x4x16.Idx → EReal) (V c main_arg4 : S1x4x16.Idx → EReal) :=
  (dat1 (F := Ideal) V c).arrAt_eq_of_cover 4 _ (fun t _ => flushed_eq V c t) covered

end Cert.KernelIdeal.AttnValue

end
-- ==== Proof.KHost.lean ====
/-
  The idealized kernel program between and after its two launches, read back.
  Between the launches the host reshapes the projection to nodes × heads × features, cuts `edge_index` into its source
  row and its destination row, and takes the projection's rows at both (a take that wraps a negative index by the number
  of nodes and FILLS a row whose wrapped index is still outside `0 … 99999`). After the second launch it adds every
  edge's message into its destination node's row, clips at zero from below and flattens heads × features.
  So the result is `tail (msgs (take Wh src) (take Wh dst) a_src a_dst) dst` with `Wh` the reshaped product.
-/
import proofs.«405144_j188978561180_2_alg».proof.Proof.Gen.KernelIdeal.Frame
import proofs.«405144_j188978561180_2_alg».proof.Proof.Spec
import proofs.«405144_j188978561180_2_alg».proof.Proof.MatValue
import proofs.«405144_j188978561180_2_alg».proof.Proof.AttnValue
import Idealize.ShloMosaic.Lib.StableHlo.Run
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## The host compositions, as functions (at any float family `F`) -/

section Generic

variable {F : FTy → Type} [FloatOps F]

/-- Row `0` of `edge_index`: the edges' source nodes. -/
def srcRow (a1 : IVec S2x1000000 32) : IVec S1000000 32 :=
  shapeCast S1000000 (extractStridedSlice S1x1000000 ![0, 0] a1 slices_S2x1000000_S1x1000000_0_0) shapeCasts_S1x1000000_S1000000

/-- Row `1` of `edge_index`: the edges' destination nodes. -/
def dstRow (a1 : IVec S2x1000000 32) : IVec S1000000 32 :=
  shapeCast S1000000 (extractStridedSlice S1x1000000 ![1, 0] a1 slices_S2x1000000_S1x1000000_1_0) shapeCasts_S1x1000000_S1000000

/-- A negative index wrapped by the number of nodes. -/
def wrap (s : IVec S1000000 32) : IVec S1000000 32 :=
  select (cmpi .slt s (broadcastInDim S1000000 ![] bcast_S_S1000000 (constantI S_ 32 0#32)))
    (addi s (broadcastInDim S1000000 ![] bcast_S_S1000000 (constantI S_ 32 100000#32))) s

/-- The wrapped indices as a column of start indices. -/
def startCol (s : IVec S1000000 32) : IVec S1000000x1 32 :=
  broadcastInDim S1000000x1 ![0] bcast_S1000000_S1000000x1_0 (wrap s)

/-- Per edge: is the wrapped index a node number, `0 ≤ · ≤ 99999`? -/
def inRange (i5 : IVec S1000000x1 32) : IVec S1000000 1 :=
  Host.reduce IntOp.andi
    (andi (cmpi .sge i5 (broadcastInDim S1000000x1 ![] bcast_S_S1000000x1 (constantI S_ 32 0#32)))
      (cmpi .sle i5 (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The take: the table's row at each wrapped index where that is a node number, the fill word elsewhere. -/
def take (x : FVec F S100000x4x16 .f32) (s : IVec S1000000 32) : FVec F S1000000x4x16 .f32 :=
  select (broadcastInDim S1000000x4x16 ![0] bcast_S1000000_S1000000x4x16_0 (inRange (startCol s)))
    (Host.gather gather_S100000x4x16_S1000000x1_S1000000x4x16_12_0_n_n_0_1_1416 x (startCol s))
    (broadcastInDim S1000000x4x16 ![] bcast_S_S1000000x4x16 (constant (F := F) S_ .f32 0x7FC00000#32))

/-- The projection as nodes × heads × features. -/
def heads (wh : FVec F S100000x64 .f32) : FVec F S100000x4x16 .f32 :=
  shapeCast S100000x4x16 wh shapeCasts_S100000x64_S100000x4x16

/-- After the second launch: every edge's message added into its destination node's row (from zero), clipped at zero
    from below, heads × features flattened. -/
def tail (msgs : FVec F S1000000x4x16 .f32) (dst : IVec S1000000 32) : FVec F S100000x64 .f32 :=
  shapeCast S100000x64
    (maximumf
      (Host.scatterAdd (F := F) scatter_S100000x4x16_S1000000x1_S1000000x4x16_12_0_0_1
        (broadcastInDim S100000x4x16 ![] bcast_S_S100000x4x16 (constant (F := F) S_ .f32 0x00000000#32))
        (broadcastInDim S1000000x1 ![0] bcast_S1000000_S1000000x1_0 dst) msgs)
      (broadcastInDim S100000x4x16 ![] bcast_S_S100000x4x16 (constant (F := F) S_ .f32 0x00000000#32)))
    shapeCasts_S100000x4x16_S100000x64

/-! ## The host stretches, each over ANY contents `Wp` it is entered from

Stated over an arbitrary valuation, so that reading one stretch never opens the stretches before it. -/

section Stretches

variable (Wp : Valuation τ sig (Elt F))

set_option maxHeartbeats 4000000 in
/-- The first stretch reshapes the projection to nodes × heads × features … -/
theorem s1_v1 : StableHlo.after hostOps1 Wp (Proc.devRef .tc main_v1) = heads (Wp (Proc.devRef .tc main_v0)) := by
  after_results_simp <;> rfl

set_option maxHeartbeats 4000000 in
/-- … cuts out the source row … -/
theorem s1_v3 : StableHlo.after hostOps1 Wp (Proc.devRef .tc main_v3) = srcRow (Wp (Proc.devRef .tc main_arg1)) := by
  after_results_simp <;> rfl

set_option maxHeartbeats 4000000 in
/-- … and the destination row, and leaves `a_src` and `a_dst` alone. -/
theorem s1_v5 : StableHlo.after hostOps1 Wp (Proc.devRef .tc main_v5) = dstRow (Wp (Proc.devRef .tc main_arg1)) := by
  after_results_simp <;> rfl

set_option maxHeartbeats 4000000 in
theorem s1_arg3 : StableHlo.after hostOps1 Wp (Proc.devRef .tc main_arg3) = Wp (Proc.devRef .tc main_arg3) := by
  after_results_simp <;> rfl

set_option maxHeartbeats 4000000 in
theorem s1_arg4 : StableHlo.after hostOps1 Wp (Proc.devRef .tc main_arg4) = Wp (Proc.devRef .tc main_arg4) := by
  after_results_simp <;> rfl

/-! ### The take at the source row, as a composition of three maps

Its first eight operations turn the row into a column of start indices (a negative index wrapped by the number of
nodes); the next ten test every start index against `0 ≤ · ≤ 99999`, per edge; the last five select, under that
test spread over heads × features, between the table's gathered row and the fill word. The take is the three in
order. -/

abbrev tk0a : List (HloOp τ sig (Elt F)) := (hostOps1_1 : List (HloOp τ sig (Elt F))).take 8
abbrev tk0b : List (HloOp τ sig (Elt F)) := ((hostOps1_1 : List (HloOp τ sig (Elt F))).drop 8).take 10
abbrev tk0c : List (HloOp τ sig (Elt F)) := (hostOps1_1 : List (HloOp τ sig (Elt F))).drop 18

/-- The take's operations are those three pieces in order. -/
theorem tk0_split : (hostOps1_1 : List (HloOp τ sig (Elt F))) = tk0a ++ (tk0b ++ tk0c) := rfl

set_option maxHeartbeats 4000000 in
theorem tk0a_col : StableHlo.after tk0a Wp (Proc.devRef .tc main_call0_v5) = startCol (Wp (Proc.devRef .tc main_v3)) := by
  simp only [tk0a, hostOps1_1, List.take_succ_cons, List.take_zero]
  after_results_simp <;> rfl
set_option maxHeartbeats 4000000 in
theorem tk0a_v1 : StableHlo.after tk0a Wp (Proc.devRef .tc main_v1) = Wp (Proc.devRef .tc main_v1) := by
  simp only [tk0a, hostOps1_1, List.take_succ_cons, List.take_zero]
  after_results_simp <;> rfl

attribute [local irreducible] Host.reduce in
set_option maxHeartbeats 4000000 in
theorem tk0b_mask : StableHlo.after tk0b Wp (Proc.devRef .tc main_call0_v12) = inRange (Wp (Proc.devRef .tc main_call0_v5)) := by
  simp only [tk0b, hostOps1_1, List.drop_succ_cons, List.drop_zero, List.take_succ_cons, List.take_zero]
  after_results_simp <;> rfl
set_option maxHeartbeats 4000000 in
theorem tk0b_col : StableHlo.after tk0b Wp (Proc.devRef .tc main_call0_v5) = Wp (Proc.devRef .tc main_call0_v5) := by
  simp only [tk0b, hostOps1_1, List.drop_succ_cons, List.drop_zero, List.take_succ_cons, List.take_zero]
  after_results_simp <;> rfl
set_option maxHeartbeats 4000000 in
theorem tk0b_v1 : StableHlo.after tk0b Wp (Proc.devRef .tc main_v1) = Wp (Proc.devRef .tc main_v1) := by
  simp only [tk0b, hostOps1_1, List.drop_succ_cons, List.drop_zero, List.take_succ_cons, List.take_zero]
  after_results_simp <;> rfl

set_option maxHeartbeats 4000000 in
theorem tk0c_out : StableHlo.after tk0c Wp (Proc.devRef .tc main_v6)
    = select (broadcastInDim S1000000x4x16 ![0] bcast_S1000000_S1000000x4x16_0 (Wp (Proc.devRef .tc main_call0_v12)))
        (Host.gather gather_S100000x4x16_S1000000x1_S1000000x4x16_12_0_n_n_0_1_1416 (Wp (Proc.devRef .tc main_v1)) (Wp (Proc.devRef .tc main_call0_v5)))
        (broadcastInDim S1000000x4x16 ![] bcast_S_S1000000x4x16 (constant (F := F) S_ .f32 0x7FC00000#32)) := by
  simp only [tk0c, hostOps1_1, List.drop_succ_cons, List.drop_zero]
  after_results_simp <;> rfl

/-- The second stretch is the take at the source row. -/
theorem s2_v6 :
    StableHlo.after hostOps1_1 Wp (Proc.devRef .tc main_v6) = take (Wp (Proc.devRef .tc main_v1)) (Wp (Proc.devRef .tc main_v3)) := by
  rw [tk0_split, StableHlo.after_append, StableHlo.after_append, tk0c_out, tk0b_mask, tk0b_col, tk0b_v1, tk0a_col, tk0a_v1]
  rfl

-- The second stretch keeps the reshaped projection, the destination row, `a_src` and `a_dst`.
set_option maxHeartbeats 8000000 in
theorem s2_v1 : StableHlo.after hostOps1_1 Wp (Proc.devRef .tc main_v1) = Wp (Proc.devRef .tc main_v1) := by
  after_results_simp <;> rfl

set_option maxHeartbeats 8000000 in
theorem s2_v5 : StableHlo.after hostOps1_1 Wp (Proc.devRef .tc main_v5) = Wp (Proc.devRef .tc main_v5) := by
  after_results_simp <;> rfl

set_option maxHeartbeats 8000000 in
theorem s2_arg3 : StableHlo.after hostOps1_1 Wp (Proc.devRef .tc main_arg3) = Wp (Proc.devRef .tc main_arg3) := by
  after_results_simp <;> rfl

set_option maxHeartbeats 8000000 in
theorem s2_arg4 : StableHlo.after hostOps1_1 Wp (Proc.devRef .tc main_arg4) = Wp (Proc.devRef .tc main_arg4) := by
  after_results_simp <;> rfl

/-! ### The take at the destination row, as a composition of three maps

Its first eight operations turn the row into a column of start indices (a negative index wrapped by the number of
nodes); the next ten test every start index against `0 ≤ · ≤ 99999`, per edge; the last five select, under that
test spread over heads × features, between the table's gathered row and the fill word. The take is the three in
order. -/

abbrev tk1a : List (HloOp τ sig (Elt F)) := (hostOps1_2 : List (HloOp τ sig (Elt F))).take 8
abbrev tk1b : List (HloOp τ sig (Elt F)) := ((hostOps1_2 : List (HloOp τ sig (Elt F))).drop 8).take 10
abbrev tk1c : List (HloOp τ sig (Elt F)) := (hostOps1_2 : List (HloOp τ sig (Elt F))).drop 18

/-- The take's operations are those three pieces in order. -/
theorem tk1_split : (hostOps1_2 : List (HloOp τ sig (Elt F))) = tk1a ++ (tk1b ++ tk1c) := rfl

set_option maxHeartbeats 4000000 in
theorem tk1a_col : StableHlo.after tk1a Wp (Proc.devRef .tc main_call1_v5) = startCol (Wp (Proc.devRef .tc main_v5)) := by
  simp only [tk1a, hostOps1_2, List.take_succ_cons, List.take_zero]
  after_results_simp <;> rfl
set_option maxHeartbeats 4000000 in
theorem tk1a_v1 : StableHlo.after tk1a Wp (Proc.devRef .tc main_v1) = Wp (Proc.devRef .tc main_v1) := by
  simp only [tk1a, hostOps1_2, List.take_succ_cons, List.take_zero]
  after_results_simp <;> rfl

attribute [local irreducible] Host.reduce in
set_option maxHeartbeats 4000000 in
theorem tk1b_mask : StableHlo.after tk1b Wp (Proc.devRef .tc main_call1_v12) = inRange (Wp (Proc.devRef .tc main_call1_v5)) := by
  simp only [tk1b, hostOps1_2, List.drop_succ_cons, List.drop_zero, List.take_succ_cons, List.take_zero]
  after_results_simp <;> rfl
set_option maxHeartbeats 4000000 in
theorem tk1b_col : StableHlo.after tk1b Wp (Proc.devRef .tc main_call1_v5) = Wp (Proc.devRef .tc main_call1_v5) := by
  simp only [tk1b, hostOps1_2, List.drop_succ_cons, List.drop_zero, List.take_succ_cons, List.take_zero]
  after_results_simp <;> rfl
set_option maxHeartbeats 4000000 in
theorem tk1b_v1 : StableHlo.after tk1b Wp (Proc.devRef .tc main_v1) = Wp (Proc.devRef .tc main_v1) := by
  simp only [tk1b, hostOps1_2, List.drop_succ_cons, List.drop_zero, List.take_succ_cons, List.take_zero]
  after_results_simp <;> rfl

set_option maxHeartbeats 4000000 in
theorem tk1c_out : StableHlo.after tk1c Wp (Proc.devRef .tc main_v7)
    = select (broadcastInDim S1000000x4x16 ![0] bcast_S1000000_S1000000x4x16_0 (Wp (Proc.devRef .tc main_call1_v12)))
        (Host.gather gather_S100000x4x16_S1000000x1_S1000000x4x16_12_0_n_n_0_1_1416 (Wp (Proc.devRef .tc main_v1)) (Wp (Proc.devRef .tc main_call1_v5)))
        (broadcastInDim S1000000x4x16 ![] bcast_S_S1000000x4x16 (constant (F := F) S_ .f32 0x7FC00000#32)) := by
  simp only [tk1c, hostOps1_2, List.drop_succ_cons, List.drop_zero]
  after_results_simp <;> rfl

/-- The third stretch is the take at the destination row. -/
theorem s3_v7 :
    StableHlo.after hostOps1_2 Wp (Proc.devRef .tc main_v7) = take (Wp (Proc.devRef .tc main_v1)) (Wp (Proc.devRef .tc main_v5)) := by
  rw [tk1_split, StableHlo.after_append, StableHlo.after_append, tk1c_out, tk1b_mask, tk1b_col, tk1b_v1, tk1a_col, tk1a_v1]
  rfl

-- The third stretch keeps the first take, the destination row, `a_src` and `a_dst`.
set_option maxHeartbeats 8000000 in
theorem s3_v6 : StableHlo.after hostOps1_2 Wp (Proc.devRef .tc main_v6) = Wp (Proc.devRef .tc main_v6) := by
  after_results_simp <;> rfl

set_option maxHeartbeats 8000000 in
theorem s3_v5 : StableHlo.after hostOps1_2 Wp (Proc.devRef .tc main_v5) = Wp (Proc.devRef .tc main_v5) := by
  after_results_simp <;> rfl

set_option maxHeartbeats 8000000 in
theorem s3_arg3 : StableHlo.after hostOps1_2 Wp (Proc.devRef .tc main_arg3) = Wp (Proc.devRef .tc main_arg3) := by
  after_results_simp <;> rfl

set_option maxHeartbeats 8000000 in
theorem s3_arg4 : StableHlo.after hostOps1_2 Wp (Proc.devRef .tc main_arg4) = Wp (Proc.devRef .tc main_arg4) := by
  after_results_simp <;> rfl

set_option maxHeartbeats 4000000 in
/-- The last three stretches together are the tail of the messages and the destination row they find. -/
theorem s456_v13 :
    StableHlo.after hostOps2_2 (StableHlo.after hostOps2_1 (StableHlo.after hostOps2 Wp)) (Proc.devRef .tc main_v13)
      = tail (Wp (Proc.devRef .tc main_v8)) (Wp (Proc.devRef .tc main_v5)) := by
  after_results_simp <;> rfl

end Stretches

end Generic

variable (m : (ℓ : Loc nD τ sig) → Buf (Elt Ideal) ℓ) (ρ : Dev nD → PrngReg)

/-! ## After the first launch -/

/-- The first launch leaves the product in its output array. -/
theorem W1_v0 (c : Dev nD) :
    W1 m ρ c (Proc.devRef .tc main_v0)
      = Cert.Spec.mat (n := 100000) (m ((c.tc : Thread nD τ).loc main_arg0) : S100000x128.Idx → EReal)
          (m ((c.tc : Thread nD τ).loc main_arg2) : S128x64.Idx → EReal) :=
  (W1_arr m ρ c 2).trans (Cert.KernelIdeal.MatValue.final0 (V0 m ρ) c)

/-- It does not touch `edge_index` … -/
theorem W1_arg1 (c : Dev nD) : W1 m ρ c (Proc.devRef .tc main_arg1) = m ((c.tc : Thread nD τ).loc main_arg1) :=
  W1_of_ne m ρ c main_arg1 (by decide)
/-- … nor `a_src` … -/
theorem W1_arg3 (c : Dev nD) : W1 m ρ c (Proc.devRef .tc main_arg3) = m ((c.tc : Thread nD τ).loc main_arg3) :=
  W1_of_ne m ρ c main_arg3 (by decide)
/-- … nor `a_dst`. -/
theorem W1_arg4 (c : Dev nD) : W1 m ρ c (Proc.devRef .tc main_arg4) = m ((c.tc : Thread nD τ).loc main_arg4) :=
  W1_of_ne m ρ c main_arg4 (by decide)

/-! ## Between the launches -/

theorem W2_v1 (c : Dev nD) : W2 m ρ c (Proc.devRef .tc main_v1) = heads (F := Ideal) (W1 m ρ c (Proc.devRef .tc main_v0)) := s1_v1 (F := Ideal) (W1 m ρ c)
theorem W2_v3 (c : Dev nD) : W2 m ρ c (Proc.devRef .tc main_v3) = srcRow (W1 m ρ c (Proc.devRef .tc main_arg1)) := s1_v3 (F := Ideal) (W1 m ρ c)
theorem W2_v5 (c : Dev nD) : W2 m ρ c (Proc.devRef .tc main_v5) = dstRow (W1 m ρ c (Proc.devRef .tc main_arg1)) := s1_v5 (F := Ideal) (W1 m ρ c)
theorem W2_arg3 (c : Dev nD) : W2 m ρ c (Proc.devRef .tc main_arg3) = W1 m ρ c (Proc.devRef .tc main_arg3) := s1_arg3 (F := Ideal) (W1 m ρ c)
theorem W2_arg4 (c : Dev nD) : W2 m ρ c (Proc.devRef .tc main_arg4) = W1 m ρ c (Proc.devRef .tc main_arg4) := s1_arg4 (F := Ideal) (W1 m ρ c)
theorem W3_v6 (c : Dev nD) :
    W3 m ρ c (Proc.devRef .tc main_v6) = take (F := Ideal) (W2 m ρ c (Proc.devRef .tc main_v1)) (W2 m ρ c (Proc.devRef .tc main_v3)) := s2_v6 (F := Ideal) (W2 m ρ c)
theorem W3_v1 (c : Dev nD) : W3 m ρ c (Proc.devRef .tc main_v1) = W2 m ρ c (Proc.devRef .tc main_v1) := s2_v1 (F := Ideal) (W2 m ρ c)
theorem W3_v5 (c : Dev nD) : W3 m ρ c (Proc.devRef .tc main_v5) = W2 m ρ c (Proc.devRef .tc main_v5) := s2_v5 (F := Ideal) (W2 m ρ c)
theorem W3_arg3 (c : Dev nD) : W3 m ρ c (Proc.devRef .tc main_arg3) = W2 m ρ c (Proc.devRef .tc main_arg3) := s2_arg3 (F := Ideal) (W2 m ρ c)
theorem W3_arg4 (c : Dev nD) : W3 m ρ c (Proc.devRef .tc main_arg4) = W2 m ρ c (Proc.devRef .tc main_arg4) := s2_arg4 (F := Ideal) (W2 m ρ c)
theorem W4_v7 (c : Dev nD) :
    W4 m ρ c (Proc.devRef .tc main_v7) = take (F := Ideal) (W3 m ρ c (Proc.devRef .tc main_v1)) (W3 m ρ c (Proc.devRef .tc main_v5)) := s3_v7 (F := Ideal) (W3 m ρ c)
theorem W4_v6 (c : Dev nD) : W4 m ρ c (Proc.devRef .tc main_v6) = W3 m ρ c (Proc.devRef .tc main_v6) := s3_v6 (F := Ideal) (W3 m ρ c)
theorem W4_v5 (c : Dev nD) : W4 m ρ c (Proc.devRef .tc main_v5) = W3 m ρ c (Proc.devRef .tc main_v5) := s3_v5 (F := Ideal) (W3 m ρ c)
theorem W4_arg3 (c : Dev nD) : W4 m ρ c (Proc.devRef .tc main_arg3) = W3 m ρ c (Proc.devRef .tc main_arg3) := s3_arg3 (F := Ideal) (W3 m ρ c)
theorem W4_arg4 (c : Dev nD) : W4 m ρ c (Proc.devRef .tc main_arg4) = W3 m ρ c (Proc.devRef .tc main_arg4) := s3_arg4 (F := Ideal) (W3 m ρ c)

/-! ## What the second launch finds, from the launch memory -/

/-- The reshaped product. -/
abbrev whOf (c : Dev nD) : FVec Ideal S100000x4x16 .f32 :=
  heads (F := Ideal) (Cert.Spec.mat (n := 100000) (m ((c.tc : Thread nD τ).loc main_arg0) : S100000x128.Idx → EReal)
    (m ((c.tc : Thread nD τ).loc main_arg2) : S128x64.Idx → EReal))

theorem V4_v6 (c : Dev nD) :
    V4 m ρ c main_v6 = take (F := Ideal) (whOf m c) (srcRow (m ((c.tc : Thread nD τ).loc main_arg1))) := by
  show W4 m ρ c (Proc.devRef .tc main_v6) = _
  rw [W4_v6, W3_v6, W2_v1, W2_v3, W1_v0, W1_arg1]

theorem V4_v7 (c : Dev nD) :
    V4 m ρ c main_v7 = take (F := Ideal) (whOf m c) (dstRow (m ((c.tc : Thread nD τ).loc main_arg1))) := by
  show W4 m ρ c (Proc.devRef .tc main_v7) = _
  rw [W4_v7, W3_v1, W3_v5, W2_v1, W2_v5, W1_v0, W1_arg1]

theorem V4_v5 (c : Dev nD) : W4 m ρ c (Proc.devRef .tc main_v5) = dstRow (m ((c.tc : Thread nD τ).loc main_arg1)) := by
  rw [W4_v5, W3_v5, W2_v5, W1_arg1]

theorem V4_arg3 (c : Dev nD) : V4 m ρ c main_arg3 = m ((c.tc : Thread nD τ).loc main_arg3) := by
  show W4 m ρ c (Proc.devRef .tc main_arg3) = _
  rw [W4_arg3, W3_arg3, W2_arg3, W1_arg3]

theorem V4_arg4 (c : Dev nD) : V4 m ρ c main_arg4 = m ((c.tc : Thread nD τ).loc main_arg4) := by
  show W4 m ρ c (Proc.devRef .tc main_arg4) = _
  rw [W4_arg4, W3_arg4, W2_arg4, W1_arg4]

/-! ## After the second launch -/

/-- The second launch leaves the messages of all edges in its output array. -/
theorem W5_v8 (c : Dev nD) :
    W5 m ρ c (Proc.devRef .tc main_v8)
      = Cert.Spec.msgs (n := 1000000) (take (F := Ideal) (whOf m c) (srcRow (m ((c.tc : Thread nD τ).loc main_arg1))))
          (take (F := Ideal) (whOf m c) (dstRow (m ((c.tc : Thread nD τ).loc main_arg1))))
          (m ((c.tc : Thread nD τ).loc main_arg3) : S1x4x16.Idx → EReal) (m ((c.tc : Thread nD τ).loc main_arg4) : S1x4x16.Idx → EReal) := by
  rw [(W5_arr m ρ c 4).trans (Cert.KernelIdeal.AttnValue.final1 (V4 m ρ) c), V4_v6, V4_v7, V4_arg3, V4_arg4]

/-- It does not touch the destination row. -/
theorem W5_v5 (c : Dev nD) : W5 m ρ c (Proc.devRef .tc main_v5) = dstRow (m ((c.tc : Thread nD τ).loc main_arg1)) :=
  (W5_of_ne m ρ c main_v5 (by decide)).trans (V4_v5 m ρ c)

/-- The result buffer after the last stretch: the tail of what the second launch left. -/
theorem W8_v13 (c : Dev nD) :
    W8 m ρ c (Proc.devRef .tc main_v13) = tail (F := Ideal) (W5 m ρ c (Proc.devRef .tc main_v8)) (W5 m ρ c (Proc.devRef .tc main_v5)) :=
  s456_v13 (F := Ideal) (W5 m ρ c)

/-- THE RESULT of the idealized kernel program, as one function of the launch memory. -/
theorem result_eq (c : Dev nD) :
    W8 m ρ c (Proc.devRef .tc main_v13)
      = tail (F := Ideal) (Cert.Spec.msgs (n := 1000000) (take (F := Ideal) (whOf m c) (srcRow (m ((c.tc : Thread nD τ).loc main_arg1))))
          (take (F := Ideal) (whOf m c) (dstRow (m ((c.tc : Thread nD τ).loc main_arg1))))
          (m ((c.tc : Thread nD τ).loc main_arg3) : S1x4x16.Idx → EReal) (m ((c.tc : Thread nD τ).loc main_arg4) : S1x4x16.Idx → EReal))
        (dstRow (m ((c.tc : Thread nD τ).loc main_arg1))) := by
  rw [W8_v13, W5_v8, W5_v5]

end Cert.KernelIdeal.HostValue

end
-- ==== Proof.RefChain.lean ====
/-
  The reference's side: its attention chain on whole arrays is the per-edge message, index by index.
-/
import proofs.«405144_j188978561180_2_alg».proof.Proof.Gen.ReferenceIdeal.Run
import proofs.«405144_j188978561180_2_alg».proof.Proof.Gen.ReferenceIdeal.Read
import proofs.«405144_j188978561180_2_alg».proof.Proof.Spec
import Idealize.ShloMosaic.Lib.ValueIdx
import Idealize.ShloMosaic.PureOps.Ideal.Laws

noncomputable section

namespace Cert.RefChain

open Cert.ReferenceIdeal Cert.ReferenceIdeal.Gen Cert.ReferenceIdeal.Read Idealize.ShloMosaic Idealize.ShloMosaic.TcCoe Idealize.SL.Sem
open Idealize.ShloMosaic.ValueIdx

/-! ## The attention chain, one edge and one head at a time

Throughout, `e` is an edge, `g` a head and `f` a feature; the two gathered stages are never opened. -/

section Chain

variable (x0 : S100000x128.Idx → EReal) (x1 : S2x1000000.Idx → BitVec 32) (x2 : S128x64.Idx → EReal)
  (x3 x4 : S1x4x16.Idx → EReal)

/-- The source half of the logit: the gathered source row against `a_src`. -/
theorem v22_at (e : Fin 1000000) (g : Fin 4) :
    val_main_v22 (F := Ideal) x0 x1 x2 x3 (ix2 e g)
      = ∑ k : Fin 16, val_main_v12 (F := Ideal) x0 x1 x2 (ix3 e g k) * x3 (ix3 (0 : Fin 1) g k) := by
  rw [val_main_v22_apply, val_main_cst_apply]
  refine (congrArg (· + _) Ideal.ofBits_zero_f32).trans ((zero_add _).trans ?_)
  refine Finset.sum_congr rfl fun k _ => ?_
  have e1 : idx_main_v22 (ix2 e g) k = ix3 e g k :=
    funext fun a => Fin.ext (by match a with | ⟨0, _⟩ => rfl | ⟨1, _⟩ => rfl | ⟨2, _⟩ => rfl)
  have e2 : idx_main_v20 (ix3 e g k) = ix3 (0 : Fin 1) g k :=
    funext fun a => Fin.ext (by match a with | ⟨0, _⟩ => rfl | ⟨1, _⟩ => rfl | ⟨2, _⟩ => rfl)
  rw [e1, val_main_v21_apply, val_main_v20_apply, e2]
  rfl

/-- The destination half of the logit: the gathered destination row against `a_dst`. -/
theorem v25_at (e : Fin 1000000) (g : Fin 4) :
    val_main_v25 (F := Ideal) x0 x1 x2 x4 (ix2 e g)
      = ∑ k : Fin 16, val_main_v19 (F := Ideal) x0 x1 x2 (ix3 e g k) * x4 (ix3 (0 : Fin 1) g k) := by
  rw [val_main_v25_apply, val_main_cst_3_apply]
  refine (congrArg (· + _) Ideal.ofBits_zero_f32).trans ((zero_add _).trans ?_)
  refine Finset.sum_congr rfl fun k _ => ?_
  have e1 : idx_main_v25 (ix2 e g) k = ix3 e g k :=
    funext fun a => Fin.ext (by match a with | ⟨0, _⟩ => rfl | ⟨1, _⟩ => rfl | ⟨2, _⟩ => rfl)
  have e2 : idx_main_v23 (ix3 e g k) = ix3 (0 : Fin 1) g k :=
    funext fun a => Fin.ext (by match a with | ⟨0, _⟩ => rfl | ⟨1, _⟩ => rfl | ⟨2, _⟩ => rfl)
  rw [e1, val_main_v24_apply, val_main_v23_apply, e2]
  rfl

/-- The logit of edge `e` at head `g`. -/
theorem v26_at (e : Fin 1000000) (g : Fin 4) :
    val_main_v26 (F := Ideal) x0 x1 x2 x3 x4 (ix2 e g)
      = Cert.Spec.logit (Cert.Spec.row (val_main_v12 (F := Ideal) x0 x1 x2) e)
          (Cert.Spec.row (val_main_v19 (F := Ideal) x0 x1 x2) e) (Cert.Spec.row x3 0) (Cert.Spec.row x4 0) g := by
  rw [val_main_v26_apply, v22_at, v25_at]
  rfl

/-- The rectified logit of edge `e` at head `g`. -/
theorem v31_at (e : Fin 1000000) (g : Fin 4) :
    val_main_v31 (F := Ideal) x0 x1 x2 x3 x4 (ix2 e g)
      = Cert.Spec.act (Cert.Spec.row (val_main_v12 (F := Ideal) x0 x1 x2) e)
          (Cert.Spec.row (val_main_v19 (F := Ideal) x0 x1 x2) e) (Cert.Spec.row x3 0) (Cert.Spec.row x4 0) g := by
  rw [val_main_v31_apply, val_main_v28_apply, val_main_v30_apply, val_main_v27_apply, val_main_v29_apply,
    val_main_cst_4_apply, val_main_cst_5_apply, v26_at]
  rfl

/-- Inserting head `k` on the dropped axis over edge `e` gives the index `(e, k)`. -/
theorem lift_heads (h : S1000000x4.Reduces [1] S1000000) (e : Fin 1000000) (k : Fin 4) :
    h.lift (ix1 e) k = ix2 e k :=
  funext fun a => Fin.ext (by match a with | ⟨0, _⟩ => rfl | ⟨1, _⟩ => rfl)

/-- A maximum-reduce over the heads, read at edge `e`: the fold of `max` from the initial word over the four heads. -/
theorem reduce_heads (y : S1000000x4.Idx → EReal) (a : Fin 4 → EReal) (e : Fin 1000000)
    (hy : ∀ k : Fin 4, y (ix2 e k) = a k) :
    Host.reduce (FloatOps.maximumf (F := Ideal) (φ := .f32)) y (val_main_cst_6 (F := Ideal))
        reducesTo_S1000000x4_S1000000_d1 h_S_ (ix1 e)
      = (Finset.univ : Finset (Fin 4)).fold max Cert.Spec.negInf a := by
  rw [Host.reduce_eq_fold_single FloatOps.maximumf _ _ reducesTo_S1000000x4_S1000000_d1 (by decide) h_S_ (ix1 e)]
  refine Finset.fold_congr fun k _ => ?_
  exact (congrArg y (lift_heads _ e k)).trans (hy k)

/-- The maximum over the heads of edge `e`, as a fold of `max` from `-∞`. -/
theorem v32_at (e : Fin 1000000) :
    val_main_v32 (F := Ideal) x0 x1 x2 x3 x4 (ix1 e)
      = (Finset.univ : Finset (Fin 4)).fold max Cert.Spec.negInf
          (Cert.Spec.act (Cert.Spec.row (val_main_v12 (F := Ideal) x0 x1 x2) e)
            (Cert.Spec.row (val_main_v19 (F := Ideal) x0 x1 x2) e) (Cert.Spec.row x3 0) (Cert.Spec.row x4 0)) :=
  reduce_heads _ _ e (v31_at x0 x1 x2 x3 x4 e)

/-- The stage that guards the maximum with `-∞` once more changes nothing: a fold of `max` from `-∞` is at least `-∞`. -/
theorem v34_at (e : Fin 1000000) :
    val_main_v34 (F := Ideal) x0 x1 x2 x3 x4 (ix1 e)
      = Cert.Spec.top (Cert.Spec.row (val_main_v12 (F := Ideal) x0 x1 x2) e)
          (Cert.Spec.row (val_main_v19 (F := Ideal) x0 x1 x2) e) (Cert.Spec.row x3 0) (Cert.Spec.row x4 0) := by
  rw [val_main_v34_apply, val_main_v33_apply, val_main_cst_7_apply, v32_at]
  exact max_eq_right ((Finset.le_fold_max _).mpr (Or.inl le_rfl))

/-- The maximum of edge `e`, spread over its heads. -/
theorem v36_at (e : Fin 1000000) (g : Fin 4) :
    val_main_v36 (F := Ideal) x0 x1 x2 x3 x4 (ix2 e g)
      = Cert.Spec.top (Cert.Spec.row (val_main_v12 (F := Ideal) x0 x1 x2) e)
          (Cert.Spec.row (val_main_v19 (F := Ideal) x0 x1 x2) e) (Cert.Spec.row x3 0) (Cert.Spec.row x4 0) := by
  have e1 : idx_main_v35 (idx_main_v36 (ix2 e g)) = ix1 e :=
    funext fun a => Fin.ext (by match a with | ⟨0, _⟩ => rfl)
  rw [val_main_v36_apply, val_main_v35_apply, e1, v34_at]

/-- The unnormalised softmax weight of edge `e` at head `g`. -/
theorem v38_at (e : Fin 1000000) (g : Fin 4) :
    val_main_v38 (F := Ideal) x0 x1 x2 x3 x4 (ix2 e g)
      = Cert.Spec.wexp (Cert.Spec.row (val_main_v12 (F := Ideal) x0 x1 x2) e)
          (Cert.Spec.row (val_main_v19 (F := Ideal) x0 x1 x2) e) (Cert.Spec.row x3 0) (Cert.Spec.row x4 0) g := by
  rw [val_main_v38_apply, val_main_v37_apply, v31_at, v36_at]
  rfl

/-- The sum of the weights of edge `e` over its heads. -/
theorem v39_at (e : Fin 1000000) :
    val_main_v39 (F := Ideal) x0 x1 x2 x3 x4 (ix1 e)
      = ∑ g' : Fin 4, Cert.Spec.wexp (Cert.Spec.row (val_main_v12 (F := Ideal) x0 x1 x2) e)
          (Cert.Spec.row (val_main_v19 (F := Ideal) x0 x1 x2) e) (Cert.Spec.row x3 0) (Cert.Spec.row x4 0) g' := by
  rw [val_main_v39_apply, val_main_cst_8_apply]
  refine (congrArg (· + _) Ideal.ofBits_zero_f32).trans ((zero_add _).trans ?_)
  refine Finset.sum_congr rfl fun k _ => ?_
  have e1 : idx_main_v39 (ix1 e) k = ix2 e k :=
    funext fun a => Fin.ext (by match a with | ⟨0, _⟩ => rfl | ⟨1, _⟩ => rfl)
  rw [e1, v38_at]

/-- The normalised weight of edge `e` at head `g`. -/
theorem v42_at (e : Fin 1000000) (g : Fin 4) :
    val_main_v42 (F := Ideal) x0 x1 x2 x3 x4 (ix2 e g)
      = Ideal.div (Cert.Spec.wexp (Cert.Spec.row (val_main_v12 (F := Ideal) x0 x1 x2) e)
          (Cert.Spec.row (val_main_v19 (F := Ideal) x0 x1 x2) e) (Cert.Spec.row x3 0) (Cert.Spec.row x4 0) g)
          (∑ g' : Fin 4, Cert.Spec.wexp (Cert.Spec.row (val_main_v12 (F := Ideal) x0 x1 x2) e)
          (Cert.Spec.row (val_main_v19 (F := Ideal) x0 x1 x2) e) (Cert.Spec.row x3 0) (Cert.Spec.row x4 0) g') := by
  have e1 : idx_main_v40 (idx_main_v41 (ix2 e g)) = ix1 e :=
    funext fun a => Fin.ext (by match a with | ⟨0, _⟩ => rfl)
  rw [val_main_v42_apply, val_main_v41_apply, val_main_v40_apply, e1, v39_at, v38_at]
  rfl

/-- The message of edge `e` at head `g`, feature `f`. -/
theorem v45_at (e : Fin 1000000) (g : Fin 4) (f : Fin 16) :
    val_main_v45 (F := Ideal) x0 x1 x2 x3 x4 (ix3 e g f)
      = Cert.Spec.msg (Cert.Spec.row (val_main_v12 (F := Ideal) x0 x1 x2) e)
          (Cert.Spec.row (val_main_v19 (F := Ideal) x0 x1 x2) e) (Cert.Spec.row x3 0) (Cert.Spec.row x4 0) g f := by
  have e1 : idx_main_v43 (idx_main_v44 (ix3 e g f)) = ix2 e g :=
    funext fun a => Fin.ext (by match a with | ⟨0, _⟩ => rfl | ⟨1, _⟩ => rfl)
  rw [val_main_v45_apply, val_main_v44_apply, val_main_v43_apply, e1, v42_at]
  rfl

end Chain

/-! ## The two stages, as whole arrays -/

/-- The reference's product stage is the product. -/
theorem proj_eq (x0 : S100000x128.Idx → EReal) (x2 : S128x64.Idx → EReal) :
    val_main_v0 (F := Ideal) x0 x2 = Cert.Spec.mat (n := 100000) x0 x2 := by
  funext i
  obtain ⟨p, q, rfl⟩ : ∃ (p : Fin 100000) (q : Fin 64), i = ix2 p q := ⟨i 0, i 1, eq_ix2 i⟩
  rw [val_main_v0_apply, Cert.Spec.mat_ix2]
  unfold Cert.Spec.matAt
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-- The reference's message stage is the per-edge message of its two gathered stages. -/
theorem msgs_eq (x0 : S100000x128.Idx → EReal) (x1 : S2x1000000.Idx → BitVec 32) (x2 : S128x64.Idx → EReal)
    (x3 x4 : S1x4x16.Idx → EReal) :
    val_main_v45 (F := Ideal) x0 x1 x2 x3 x4
      = Cert.Spec.msgs (n := 1000000) (val_main_v12 (F := Ideal) x0 x1 x2) (val_main_v19 (F := Ideal) x0 x1 x2) x3 x4 := by
  funext i
  obtain ⟨e, g, f, rfl⟩ : ∃ (e : Fin 1000000) (g : Fin 4) (f : Fin 16), i = ix3 e g f :=
    ⟨i 0, i 1, i 2, eq_ix3 i⟩
  rw [v45_at, Cert.Spec.msgs_ix3]

end Cert.RefChain

end
-- ==== Proof.EdgeRange.lean ====
/-
  The precondition's last conjunct, read back: every entry of `edge_index` is a node number, `0 ≤ · < 100000`.
-/
import proofs.«405144_j188978561180_2_alg».proof.Pre_finite_inputs
import Idealize.ShloMosaic.Lib.ReduceAll
import Idealize.ShloMosaic.Lib.StableHlo.Predicate
import Idealize.ShloMosaic.Lib.ValueIdx

noncomputable section

namespace Cert.EdgeRange

open Idealize.ShloMosaic Cert.Pre_finite_inputs

variable [Cert.Pre_finite_inputs.Facts]

/-- The shape of a scalar has exactly one index. -/
instance : Subsingleton S_.Idx := ⟨fun a b => funext fun d => d.elim0⟩

/-- A one-bit word that is not `1` is `0`. -/
theorem bit_eq_zero (c : BitVec 1) (hc : ¬c = 1#1) : c = 0#1 := by revert c; decide

/-- The signed readings of the two literals the range test compares against. -/
theorem toInt_zero : (0#32 : BitVec 32).toInt = 0 := by decide
theorem toInt_nodes : (100000#32 : BitVec 32).toInt = 100000 := by decide
theorem toInt_last : (99999#32 : BitVec 32).toInt = 99999 := by decide

/-- Where the precondition holds, each entry of `edge_index` passes both of its comparisons. -/
theorem bounds (a0 : S100000x128.Idx → EReal) (a1 : S2x1000000.Idx → BitVec 32) (a2 : S128x64.Idx → EReal)
    (a3 a4 : S1x4x16.Idx → EReal)
    (h : Cert.Pre_finite_inputs.fn (F := Ideal) a0 a1 a2 a3 a4 = fun _ => 1#1) (i : S2x1000000.Idx) :
    IntOp.cmpi .sge (a1 i) 0#32 = 1#1 ∧ IntOp.cmpi .slt (a1 i) 100000#32 = 1#1 := by
  -- the predicate's one word is a conjunction whose last conjunct is the `all` over `edge_index`
  have e := congrFun h ValueIdx.ix0
  dsimp only [fn, fn_part1] at e
  have eAll := (IntOp.andi_eq_one.1 e).2
  -- an `all` that is 1 met a 1 at every index: at `i`, the conjunction of the two comparisons
  have ei := Host.reduce_andi_all _ _ _ _ _ eAll i
  -- both comparisons are pointwise, each against a constant spread over the array
  exact IntOp.andi_eq_one.1 ei

/-- A word that is a node number is not negative, so the wrap of negative indices leaves it alone … -/
theorem not_neg (x : BitVec 32) (h0 : IntOp.cmpi .sge x 0#32 = 1#1) : IntOp.cmpi .slt x 0#32 = 0#1 := by
  refine bit_eq_zero _ fun h1 => ?_
  have g0 := IntOp.cmpi_sge.1 h0
  have g1 := IntOp.cmpi_slt.1 h1
  rw [toInt_zero] at g0 g1
  omega

/-- … and it passes the range test `0 ≤ x ≤ 99999` that guards a filled gather. -/
theorem le_last (x : BitVec 32) (h1 : IntOp.cmpi .slt x 100000#32 = 1#1) : IntOp.cmpi .sle x 99999#32 = 1#1 := by
  have g1 := IntOp.cmpi_slt.1 h1
  rw [toInt_nodes] at g1
  refine IntOp.cmpi_sle.2 ?_
  rw [toInt_last]
  omega

end Cert.EdgeRange

end
-- ==== Proof.Bridge.lean ====
/-
  The two programs compute one function of the arguments, where `edge_index` holds node numbers.

  Both gather rows of the reshaped product `h · W` at the source and at the destination nodes, form every edge's
  messages from its two rows, and push the messages through the same tail (add into the destination node's row, clip at
  zero, flatten). They differ in one place only: the kernel program's take FILLS a row whose wrapped index falls
  outside `0 … 99999`, the reference's gather clamps it. On a node number `0 ≤ x < 100000` the wrap leaves `x`
  alone and the range test `0 ≤ x ≤ 99999` passes, so the take's mask is 1 on every edge and the take IS the gather.
-/
import proofs.«405144_j188978561180_2_alg».proof.Proof.KHost
import proofs.«405144_j188978561180_2_alg».proof.Proof.RefChain
import proofs.«405144_j188978561180_2_alg».proof.Proof.EdgeRange
import proofs.«405144_j188978561180_2_alg».proof.Proof.Gen.Pre_finite_inputs
import Idealize.ShloMosaic.Lib.Pipeline.Value
import Idealize.ShloMosaic.Lib.StableHlo.Predicate
import Idealize.ShloMosaic.Lib.ValueIdx
import Idealize.ShloMosaic.PureOps.Reduce

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.HostValue

/-! ## The take's mask on node numbers -/

/-- A left fold by `and` from 1 over words that are all 1 is 1. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi (1#1 : BitVec 1) 1#1 = 1#1 from by decide]
    exact ih

/-- What "node number" says of a word, as the two comparisons the precondition makes. -/
def IsNode (x : BitVec 32) : Prop := IntOp.cmpi .sge x 0#32 = 1#1 ∧ IntOp.cmpi .slt x 100000#32 = 1#1

section Mask

variable (s : IVec S1000000 32) (hs : ∀ e, IsNode (s e))
include hs

/-- The wrap of negative indices leaves a node number alone. -/
theorem wrap_apply (e : S1000000.Idx) : wrap s e = s e := by
  show Scalar.select (IntOp.cmpi .slt (s e) (broadcastInDim S1000000 ![] bcast_S_S1000000 (constantI S_ 32 0#32) e))
    (IntOp.addi (s e) (broadcastInDim S1000000 ![] bcast_S_S1000000 (constantI S_ 32 100000#32) e)) (s e) = s e
  rw [Predicate.bcast_scalar bcast_S_S1000000 h_S_]
  show Scalar.select (IntOp.cmpi .slt (s e) 0#32) _ (s e) = s e
  rw [Cert.EdgeRange.not_neg (s e) (hs e).1]
  exact ValueIdx.select_zero _ _

/-- The column of start indices holds, at edge `e`, the edge's own index. -/
theorem startCol_apply (i : S1000000x1.Idx) : startCol s i = s (ValueIdx.ix1 ⟨(i 0).val, (i 0).isLt⟩) := by
  unfold startCol
  rw [broadcastInDim_apply _ bcast_S1000000_S1000000x1_0 (wrap s) i (ValueIdx.ix1 ⟨(i 0).val, (i 0).isLt⟩) (fun a => match a with
    | ⟨0, _⟩ => by show (i 0).val = if (1000000 : Nat) = 1 then 0 else (i 0).val; rw [if_neg (by decide)])]
  exact wrap_apply s hs _

/-- Every start index passes the take's range test. -/
theorem inRange_apply (e : S1000000.Idx) : inRange (startCol s) e = 1#1 := by
  unfold inRange
  rw [Host.reduce_eq_foldl]
  refine foldl_andi_ones _ (fun i => ?_) _
  show IntOp.andi (IntOp.cmpi .sge (startCol s i) (broadcastInDim S1000000x1 ![] bcast_S_S1000000x1 (constantI S_ 32 0#32) i))
    (IntOp.cmpi .sle (startCol s i) (broadcastInDim S1000000x1 ![0, 1] bcast_S1x1_S1000000x1_0_1
      (broadcastInDim S1x1 ![1] bcast_S1_S1x1_1 (constantI S1 32 99999#32)) i)) = 1#1
  rw [startCol_apply s hs i, Predicate.bcast_scalar bcast_S_S1000000x1 h_S_]
  refine IntOp.andi_eq_one.2 ⟨(hs _).1, ?_⟩
  exact Cert.EdgeRange.le_last _ (hs _).2

/-- So the take is the plain gather at the same start indices. -/
theorem take_eq_gather (x : FVec Ideal S100000x4x16 .f32) :
    take (F := Ideal) x s = Host.gather gather_S100000x4x16_S1000000x1_S1000000x4x16_12_0_n_n_0_1_1416 x (startCol s) := by
  funext j
  unfold take
  rw [ValueIdx.select_apply]
  rw [broadcastInDim_apply _ bcast_S1000000_S1000000x4x16_0 (inRange (startCol s)) j (ValueIdx.ix1 ⟨(j 0).val, (j 0).isLt⟩) (fun a => match a with
    | ⟨0, _⟩ => by show (j 0).val = if (1000000 : Nat) = 1 then 0 else (j 0).val; rw [if_neg (by decide)])]
  rw [inRange_apply s hs]
  exact ValueIdx.select_one _ _

end Mask

/-! ## The kernel program's host compositions are the reference's stages -/

section Stages

open Cert.ReferenceIdeal.Read

variable {F : FTy → Type} [FloatOps F]

/-- The two programs cut the same source row and the same destination row out of `edge_index` … -/
theorem src_eq (a1 : IVec S2x1000000 32) : val_main_v3 (F := F) a1 = srcRow a1 := rfl
theorem dst_eq (a1 : IVec S2x1000000 32) : val_main_v5 (F := F) a1 = dstRow a1 := rfl

/-- … and wrap them into the same columns of start indices. -/
theorem col_src_eq (a1 : IVec S2x1000000 32) : val_main_v11 (F := F) a1 = startCol (srcRow a1) := rfl
theorem col_dst_eq (a1 : IVec S2x1000000 32) : val_main_v18 (F := F) a1 = startCol (dstRow a1) := rfl

/-- The reference's tail is the kernel program's: scatter-add into the destination rows from zero, clip at zero,
    flatten. -/
theorem tail_eq (a0 : FVec F S100000x128 .f32) (a1 : IVec S2x1000000 32) (a2 : FVec F S128x64 .f32) (a3 a4 : FVec F S1x4x16 .f32) :
    val_main_v50 (F := F) a0 a1 a2 a3 a4 = tail (F := F) (val_main_v45 (F := F) a0 a1 a2 a3 a4) (dstRow a1) := rfl

end Stages

open Cert.ReferenceIdeal.Read

/-- The reference's reshaped product is the reshaped product. -/
theorem heads_eq (a0 : S100000x128.Idx → EReal) (a2 : S128x64.Idx → EReal) :
    val_main_v1 (F := Ideal) a0 a2 = heads (F := Ideal) (Cert.Spec.mat (n := 100000) a0 a2) := by
  unfold val_main_v1
  rw [Cert.RefChain.proj_eq]
  rfl

section Rows

variable (a1 : IVec S2x1000000 32) (hb : ∀ i, IsNode (a1 i))
include hb

/-- Every entry of the source row is a node number … -/
theorem src_isNode (e : S1000000.Idx) : IsNode (srcRow a1 e) := by
  rw [← src_eq (F := Ideal), val_main_v3_apply, val_main_v2_apply]
  exact hb _

/-- … and so is every entry of the destination row. -/
theorem dst_isNode (e : S1000000.Idx) : IsNode (dstRow a1 e) := by
  rw [← dst_eq (F := Ideal), val_main_v5_apply, val_main_v4_apply]
  exact hb _

/-- The kernel program's take at the source row is the reference's gather at the source row. -/
theorem take_src (a0 : S100000x128.Idx → EReal) (a2 : S128x64.Idx → EReal) :
    take (F := Ideal) (heads (F := Ideal) (Cert.Spec.mat (n := 100000) a0 a2)) (srcRow a1) = val_main_v12 (F := Ideal) a0 a1 a2 := by
  rw [take_eq_gather (srcRow a1) (src_isNode a1 hb), ← heads_eq, ← col_src_eq (F := Ideal)]
  rfl

/-- The kernel program's take at the destination row is the reference's gather at the destination row. -/
theorem take_dst (a0 : S100000x128.Idx → EReal) (a2 : S128x64.Idx → EReal) :
    take (F := Ideal) (heads (F := Ideal) (Cert.Spec.mat (n := 100000) a0 a2)) (dstRow a1) = val_main_v19 (F := Ideal) a0 a1 a2 := by
  rw [take_eq_gather (dstRow a1) (dst_isNode a1 hb), ← heads_eq, ← col_dst_eq (F := Ideal)]
  rfl

/-- ONE FUNCTION: where `edge_index` holds node numbers, the kernel program's result is the reference's. -/
theorem results_agree (a0 : S100000x128.Idx → EReal) (a2 : S128x64.Idx → EReal) (a3 a4 : S1x4x16.Idx → EReal) :
    tail (F := Ideal) (Cert.Spec.msgs (n := 1000000) (take (F := Ideal) (heads (F := Ideal) (Cert.Spec.mat (n := 100000) a0 a2)) (srcRow a1))
        (take (F := Ideal) (heads (F := Ideal) (Cert.Spec.mat (n := 100000) a0 a2)) (dstRow a1)) a3 a4) (dstRow a1)
      = val_main_v50 (F := Ideal) a0 a1 a2 a3 a4 := by
  rw [tail_eq (F := Ideal), Cert.RefChain.msgs_eq, take_src a1 hb, take_dst a1 hb]

end Rows

end Cert.Bridge

end
-- ==== Proof.lean ====
/-
  The certificate of the graph-attention layer: a kernel program of two launches (the projection `h · W`, 2000 rows at a
  time; the per-edge attention messages, 1000 edges at a time) among host gathers and a host scatter-add, against the plain
  reference, over the extended reals, for finite float inputs and an `edge_index` that holds node numbers.

  The frames of the two kernel programs are the generated ones; the reference's frame is its generated run with the
  result dropped; the idealization rewrote nothing. For the equivalence, the kernel program's run with its result named
  (`Named.run_named`) ends at the chain's last contents, which read back (`HostValue.result_eq`) as
  `tail (msgs (take Wh src) (take Wh dst) a_src a_dst) dst` with `Wh` the reshaped product — the first launch leaves the
  product (`MatValue.final0`), the second the messages of all edges (`AttnValue.final1`) —; the reference's run ends at the
  same tail of its own message stage, which is the same per-edge message of its two gathers (`RefChain.msgs_eq`); and on
  node numbers the filled take is the gather (`Bridge.take_eq_gather`), the precondition's last conjunct read back
  (`EdgeRange.bounds`) saying that every entry of `edge_index` is one.
-/
import proofs.«405144_j188978561180_2_alg».proof.Defs
import proofs.«405144_j188978561180_2_alg».proof.Proof.Gen.Kernel
import proofs.«405144_j188978561180_2_alg».proof.Proof.Gen.Kernel.Frame
import proofs.«405144_j188978561180_2_alg».proof.Proof.Gen.KernelIdeal
import proofs.«405144_j188978561180_2_alg».proof.Proof.Gen.KernelIdeal.Frame
import proofs.«405144_j188978561180_2_alg».proof.Proof.Gen.ReferenceIdeal
import proofs.«405144_j188978561180_2_alg».proof.Proof.Gen.ReferenceIdeal.Run
import proofs.«405144_j188978561180_2_alg».proof.Proof.Gen.ReferenceIdeal.Read
import proofs.«405144_j188978561180_2_alg».proof.Proof.Gen.Pre_finite_inputs
import proofs.«405144_j188978561180_2_alg».proof.Proof.KRun
import proofs.«405144_j188978561180_2_alg».proof.Proof.KHost
import proofs.«405144_j188978561180_2_alg».proof.Proof.Bridge
import proofs.«405144_j188978561180_2_alg».proof.Proof.EdgeRange
import Idealize.ShloMosaic.Adequacy
import Idealize.ShloMosaic.Init

noncomputable section

namespace Cert.Proof

open Idealize.ShloMosaic Idealize.ShloMosaic.TcCoe Idealize.SL.Sem

/-- The kernel program runs and keeps its arguments: the generated frame of its two launches. -/
theorem frame_p : Cert.frame_Kernel := fun m ρ _ => Cert.Kernel.Gen.frame m ρ

/-- The same for its idealization. -/
theorem frame_pi : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result: the kernel program's named run, the reference's run, and the
    two results one function of the arguments where `edge_index` holds node numbers. -/
theorem algebraic : Cert.algebraic_KernelIdeal_ReferenceIdeal := by
  intro m g m' g' hpre hagree
  refine ⟨fun c => Cert.KernelIdeal.Gen.W8 m g c (Proc.devRef .tc Cert.KernelIdeal.main_v13),
    Cert.KernelIdeal.Named.run_named m g, ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4⟩ := hagree c
  show _ = Cert.KernelIdeal.Gen.W8 m g c (Proc.devRef .tc Cert.KernelIdeal.main_v13)
  rw [Cert.KernelIdeal.HostValue.result_eq, Cert.ReferenceIdeal.Read.val_main_v50_eq, e0, e1, e2, e3, e4]
  exact (Cert.Bridge.results_agree _ (fun i => Cert.EdgeRange.bounds _ _ _ _ _ (hpre c) i) _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
